-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x32x32x32 : Shape := ⟨4, ![64, 32, 32, 32]⟩
abbrev S2048x512 : Shape := ⟨2, ![2048, 512]⟩
abbrev S2048x32x32x32 : Shape := ⟨4, ![2048, 32, 32, 32]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x32x32x32 : S_.BroadcastsInDim S64x32x32x32 (![] : Fin 0 → Fin S64x32x32x32.rank)
  reducesTo_S64x32x32x32_S_d0_1_2_3 : S64x32x32x32.ReducesTo [0, 1, 2, 3] S_
  bcast_S_S2048x512 : S_.BroadcastsInDim S2048x512 (![] : Fin 0 → Fin S2048x512.rank)
  reducesTo_S2048x512_S_d0_1 : S2048x512.ReducesTo [0, 1] S_
  bcast_S_S2048x32x32x32 : S_.BroadcastsInDim S2048x32x32x32 (![] : Fin 0 → Fin S2048x32x32x32.rank)
  reducesTo_S2048x32x32x32_S_d0_1_2_3 : S2048x32x32x32.ReducesTo [0, 1, 2, 3] S_

variable [Facts]

def fn_part1 {F : FTy → Type} [FloatOps F] (main_v13 : IVec S_ 1) (main_v16 : IVec S2048x32x32x32 1) : IVec S_ 1 :=
  let main_c_5 : IVec S_ 1 := constantI S_ 1 1#1
  let main_v17 : IVec S_ 1 := (fun x v => Host.reduce IntOp.andi x v reducesTo_S2048x32x32x32_S_d0_1_2_3 h_S_) main_v16 main_c_5
  let main_v18 : IVec S_ 1 := andi main_v13 main_v17
  main_v18

def fn {F : FTy → Type} [FloatOps F] (main_arg0 : FVec F S64x512 .f32) (main_arg1 : FVec F S64x32x32x32 .f32) (main_arg2 : FVec F S2048x512 .f32) (main_arg3 : FVec F S2048x32x32x32 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x32x32x32 .f32 := Host.absf main_arg1
  let main_cst_0 : FVec F S_ .f32 := constant S_ .f32 0x7F800000#32
  let main_v5 : FVec F S64x32x32x32 .f32 := broadcastInDim S64x32x32x32 ![] bcast_S_S64x32x32x32 main_cst_0
  let main_v6 : IVec S64x32x32x32 1 := cmpf .olt main_v4 main_v5
  let main_c_1 : IVec S_ 1 := constantI S_ 1 1#1
  let main_v7 : IVec S_ 1 := (fun x v => Host.reduce IntOp.andi x v reducesTo_S64x32x32x32_S_d0_1_2_3 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x32x32x32 .f32 := Host.absf main_arg3
  let main_cst_4 : FVec F S_ .f32 := constant S_ .f32 0x7F800000#32
  let main_v15 : FVec F S2048x32x32x32 .f32 := broadcastInDim S2048x32x32x32 ![] bcast_S_S2048x32x32x32 main_cst_4
  let main_v16 : IVec S2048x32x32x32 1 := cmpf .olt main_v14 main_v15
  fn_part1 (F := F) main_v13 main_v16
-- ==== Kernel.lean ====
abbrev S64x512 : Shape := ⟨2, ![64, 512]⟩
abbrev S64x32x32x32 : Shape := ⟨4, ![64, 32, 32, 32]⟩
abbrev S2048x512 : Shape := ⟨2, ![2048, 512]⟩
abbrev S2048x32x32x32 : Shape := ⟨4, ![2048, 32, 32, 32]⟩
abbrev S64x32768 : Shape := ⟨2, ![64, 32768]⟩
abbrev S2048x32768 : Shape := ⟨2, ![2048, 32768]⟩
abbrev S64x2048 : Shape := ⟨2, ![64, 2048]⟩
abbrev S2048 : Shape := ⟨1, ![2048]⟩
abbrev S512x2048 : Shape := ⟨2, ![512, 2048]⟩
abbrev S512 : Shape := ⟨1, ![512]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S2048x1 : Shape := ⟨2, ![2048, 1]⟩

abbrev nBuf : Space → Nat
  | .hbm => 98
  | .vmem => 13
  | .smem => 0
  | _ => 0

abbrev bufTy : (tb : Table) → Fin (tcTables nBuf tb) → BufTy
  | .hbm, ⟨0, _⟩ => ⟨S64x512, .f32⟩
  | .hbm, ⟨1, _⟩ => ⟨S64x32x32x32, .f32⟩
  | .hbm, ⟨2, _⟩ => ⟨S2048x512, .f32⟩
  | .hbm, ⟨3, _⟩ => ⟨S2048x32x32x32, .f32⟩
  | .hbm, ⟨4, _⟩ => ⟨S64x32768, .f32⟩
  | .hbm, ⟨5, _⟩ => ⟨S2048x32768, .f32⟩
  | .hbm, ⟨6, _⟩ => ⟨S64x2048, .f32⟩
  | .hbm, ⟨7, _⟩ => ⟨S2048, .f32⟩
  | .hbm, ⟨8, _⟩ => ⟨S64x32768, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S1x2048, .f32⟩
  | .hbm, ⟨13, _⟩ => ⟨S64x2048, .f32⟩
  | .hbm, ⟨14, _⟩ => ⟨S64x2048, .f32⟩
  | .hbm, ⟨15, _⟩ => ⟨S64x2048, .f32⟩
  | .hbm, ⟨16, _⟩ => ⟨S_, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S_, .f32⟩
  | .hbm, ⟨24, _⟩ => ⟨S64x2048, .f32⟩
  | .hbm, ⟨25, _⟩ => ⟨S64x2048, .f32⟩
  | .hbm, ⟨26, _⟩ => ⟨S_, .f32⟩
  | .hbm, ⟨27, _⟩ => ⟨S64x2048, .f32⟩
  | .hbm, ⟨28, _⟩ => ⟨S64x2048, .i1⟩
  | .hbm, ⟨29, _⟩ => ⟨S_, .f32⟩
  | .hbm, ⟨30, _⟩ => ⟨S64x2048, .f32⟩
  | .hbm, ⟨31, _⟩ => ⟨S64x2048, .i1⟩
  | .hbm, ⟨32, _⟩ => ⟨S64x2048, .f32⟩
  | .hbm, ⟨33, _⟩ => ⟨S64x512, .f32⟩
  | .hbm, ⟨34, _⟩ => ⟨S_, .f32⟩
  | .hbm, ⟨35, _⟩ => ⟨S64, .f32⟩
  | .hbm, ⟨36, _⟩ => ⟨S64x1, .f32⟩
  | .hbm, ⟨37, _⟩ => ⟨S64x1, .f32⟩
  | .hbm, ⟨38, _⟩ => ⟨S_, .f32⟩
  | .hbm, ⟨39, _⟩ => ⟨S64x1, .f32⟩
  | .hbm, ⟨40, _⟩ => ⟨S64x1, .f32⟩
  | .hbm, ⟨41, _⟩ => ⟨S2048x512, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S1x2048, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S64x2048, .f32⟩
  | .hbm, ⟨54, _⟩ => ⟨S_, .f32⟩
  | .hbm, ⟨55, _⟩ => ⟨S64x2048, .f32⟩
  | .hbm, ⟨56, _⟩ => ⟨S64x2048, .f32⟩
  | .hbm, ⟨57, _⟩ => ⟨S_, .f32⟩
  | .hbm, ⟨58, _⟩ => ⟨S_, .f32⟩
  | .hbm, ⟨59, _⟩ => ⟨S64x2048, .f32⟩
  | .hbm, ⟨60, _⟩ => ⟨S64x2048, .f32⟩
  | .hbm, ⟨61, _⟩ => ⟨S_, .f32⟩
  | .hbm, ⟨62, _⟩ => ⟨S64, .f32⟩
  | .hbm, ⟨63, _⟩ => ⟨S_, .f32⟩
  | .hbm, ⟨64, _⟩ => ⟨S_, .f32⟩
  | .hbm, ⟨65, _⟩ => ⟨S64x2048, .f32⟩
  | .hbm, ⟨66, _⟩ => ⟨S64x2048, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .i1⟩
  | .hbm, ⟨77, _⟩ => ⟨S64, .i1⟩
  | .hbm, ⟨78, _⟩ => ⟨S_, .i1⟩
  | .hbm, ⟨79, _⟩ => ⟨S64, .i1⟩
  | .hbm, ⟨80, _⟩ => ⟨S64, .i1⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .local _ .vmem, ⟨0, _⟩ => ⟨S64x2048, .f32⟩
  | .local _ .vmem, ⟨1, _⟩ => ⟨S64x2048, .f32⟩
  | .local _ .vmem, ⟨2, _⟩ => ⟨S512x2048, .f32⟩
  | .local _ .vmem, ⟨3, _⟩ => ⟨S512x2048, .f32⟩
  | .local _ .vmem, ⟨4, _⟩ => ⟨S64x512, .f32⟩
  | .local _ .vmem, ⟨5, _⟩ => ⟨S64x512, .f32⟩
  | .local _ .vmem, ⟨6, _⟩ => ⟨S512, .f32⟩
  | .local _ .vmem, ⟨7, _⟩ => ⟨S512, .f32⟩
  | .local _ .vmem, ⟨8, _⟩ => ⟨S64x512, .f32⟩
  | .local _ .vmem, ⟨9, _⟩ => ⟨S512, .f32⟩
  | .local _ .vmem, ⟨10, _⟩ => ⟨S64x512, .f32⟩
  | .local _ .vmem, ⟨11, _⟩ => ⟨S2048x512, .f32⟩
  | .local _ .vmem, ⟨12, _⟩ => ⟨S64x2048, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v37 : Ref sig .tc := ⟨.hbm, 66, rfl⟩
abbrev main_cst_11 : Ref sig .tc := ⟨.hbm, 67, rfl⟩
abbrev main_v38 : Ref sig .tc := ⟨.hbm, 68, rfl⟩
abbrev main_v39 : Ref sig .tc := ⟨.hbm, 69, rfl⟩
abbrev main_cst_12 : Ref sig .tc := ⟨.hbm, 70, rfl⟩
abbrev main_v40 : Ref sig .tc := ⟨.hbm, 71, rfl⟩
abbrev main_v41 : Ref sig .tc := ⟨.hbm, 72, rfl⟩
abbrev main_cst_13 : Ref sig .tc := ⟨.hbm, 73, rfl⟩
abbrev main_v42 : Ref sig .tc := ⟨.hbm, 74, rfl⟩
abbrev main_v43 : Ref sig .tc := ⟨.hbm, 75, rfl⟩
abbrev main_c : Ref sig .tc := ⟨.hbm, 76, rfl⟩
abbrev main_v44 : Ref sig .tc := ⟨.hbm, 77, rfl⟩
abbrev main_c_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_cst_16 : Ref sig .tc := ⟨.hbm, 84, rfl⟩
abbrev main_call4_v0 : Ref sig .tc := ⟨.hbm, 85, rfl⟩
abbrev main_call4_v1 : Ref sig .tc := ⟨.hbm, 86, rfl⟩
abbrev main_v49 : Ref sig .tc := ⟨.hbm, 87, rfl⟩
abbrev main_cst_17 : Ref sig .tc := ⟨.hbm, 88, rfl⟩
abbrev main_v50 : Ref sig .tc := ⟨.hbm, 89, rfl⟩
abbrev main_cst_18 : Ref sig .tc := ⟨.hbm, 90, rfl⟩
abbrev main_v51 : Ref sig .tc := ⟨.hbm, 91, rfl⟩
abbrev main_cst_19 : Ref sig .tc := ⟨.hbm, 92, rfl⟩
abbrev main_v52 : Ref sig .tc := ⟨.hbm, 93, rfl⟩
abbrev main_v53 : Ref sig .tc := ⟨.hbm, 94, rfl⟩
abbrev main_cst_20 : Ref sig .tc := ⟨.hbm, 95, rfl⟩
abbrev main_call5_v0 : Ref sig .tc := ⟨.hbm, 96, rfl⟩
abbrev main_v54 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S64x32x32x32_S64x32768 : S64x32x32x32.ShapeCasts S64x32768
  shapeCasts_S2048x32x32x32_S2048x32768 : S2048x32x32x32.ShapeCasts S2048x32768
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512_S512_0 : ∀ a, (![0] : Fin 1 → Nat) a + S512.size a ≤ S512.size a
  h_S512 : 0 < S512.numel
  shapeCasts_S512_S512 : S512.ShapeCasts S512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  transposes_S512x2048_p1_0_S2048x512 : S512x2048.Transposes [1, 0] S2048x512
  reduces_S512x2048_S512 : S512x2048.Reduces [1] S512
  reducesTo_S64x32768_S64_d1 : S64x32768.ReducesTo [1] S64
  h_S_ : 0 < S_.numel
  bcast_S64_S64x1_0 : S64.BroadcastsInDim S64x1 (![0] : Fin 1 → Fin S64x1.rank)
  bcast_S2048_S1x2048_1 : S2048.BroadcastsInDim S1x2048 (![1] : Fin 1 → Fin S1x2048.rank)
  bcast_S64x1_S64x2048_0_1 : S64x1.BroadcastsInDim S64x2048 (![0, 1] : Fin 2 → Fin S64x2048.rank)
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  inb_S2048x512_S2048x512_0_0 : ∀ a, (![0, 0] : Fin 2 → Nat) a + S2048x512.size a ≤ S2048x512.size a
  h_S2048x512 : 0 < S2048x512.numel
  transposes_S2048x512_p1_0_S512x2048 : S2048x512.Transposes [1, 0] S512x2048
  reducesTo_S64x512_S64_d1 : S64x512.ReducesTo [1] S64
  bcast_S_S64x1 : S_.BroadcastsInDim S64x1 (![] : Fin 0 → Fin S64x1.rank)
  reducesTo_S2048x512_S2048_d1 : S2048x512.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S2048x1_S1x2048 : S2048x1.ShapeCasts S1x2048
  reducesTo_S64x2048_S64_d1 : S64x2048.ReducesTo [1] S64
  bcast_S_S64 : S_.BroadcastsInDim S64 (![] : Fin 0 → Fin S64.rank)
  reducesTo_S64_S_d0 : S64.ReducesTo [0] S_
  dot_S64x2048_S2048x512_S64x512_1_0_0_1_n_n_wf : DotDims.WF S64x2048 S2048x512 S64x512 [1] [0] [0] [1] [] []
  dot_S64x512_S512x2048_S64x2048_1_0_0_1_n_n_wf : DotDims.WF S64x512 S512x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x32768.size a
  hwx0_0 : ∀ i : grid0.Coords, EltTy.bits .f32 = 32 ∨ (Rect.block (s := S64x32768) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x32768.size a
  hwx0_1 : ∀ i : grid0.Coords, EltTy.bits .f32 = 32 ∨ (Rect.block (s := S2048x32768) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x2048.size a
  hwx0_2 : ∀ i : grid0.Coords, EltTy.bits .f32 = 32 ∨ (Rect.block (s := S64x2048) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S2048.size a
  hwx0_3 : ∀ i : grid0.Coords, EltTy.bits .f32 = 32 ∨ (Rect.block (s := S2048) S512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x512.size a
  hwx1_0 : ∀ i : grid1.Coords, EltTy.bits .f32 = 32 ∨ (Rect.block (s := S64x512) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .f32 = 32 ∨ (Rect.block (s := S2048x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2048.size a ≤ S64x2048.size a
  hwx1_2 : ∀ i : grid1.Coords, EltTy.bits .f32 = 32 ∨ (Rect.block (s := S64x2048) S64x2048.size (cc1_transform_2 i) (hinb1_2 i)).WholeWords (EltTy.packing .f32)

variable [Facts₀]

def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S64x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S64x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S64x2048.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x512 : Shape := ⟨2, ![64, 512]⟩
abbrev S64x32x32x32 : Shape := ⟨4, ![64, 32, 32, 32]⟩
abbrev S2048x512 : Shape := ⟨2, ![2048, 512]⟩
abbrev S2048x32x32x32 : Shape := ⟨4, ![2048, 32, 32, 32]⟩
abbrev S64x32768 : Shape := ⟨2, ![64, 32768]⟩
abbrev S2048x32768 : Shape := ⟨2, ![2048, 32768]⟩
abbrev S_ : Shape := ⟨0, ![]⟩
abbrev S64 : Shape := ⟨1, ![64]⟩
abbrev S2048 : Shape := ⟨1, ![2048]⟩
abbrev S64x1 : Shape := ⟨2, ![64, 1]⟩
abbrev S1x2048 : Shape := ⟨2, ![1, 2048]⟩
abbrev S64x2048 : Shape := ⟨2, ![64, 2048]⟩
abbrev S32768x2048 : Shape := ⟨2, ![32768, 2048]⟩
abbrev S2048x1 : Shape := ⟨2, ![2048, 1]⟩
abbrev S512x2048 : Shape := ⟨2, ![512, 2048]⟩

abbrev nBuf : Space → Nat
  | .hbm => 101
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x32x32x32, .f32⟩
  | .hbm, ⟨2, _⟩ => ⟨S2048x512, .f32⟩
  | .hbm, ⟨3, _⟩ => ⟨S2048x32x32x32, .f32⟩
  | .hbm, ⟨4, _⟩ => ⟨S64x32768, .f32⟩
  | .hbm, ⟨5, _⟩ => ⟨S2048x32768, .f32⟩
  | .hbm, ⟨6, _⟩ => ⟨S64x32768, .f32⟩
  | .hbm, ⟨7, _⟩ => ⟨S_, .f32⟩
  | .hbm, ⟨8, _⟩ => ⟨S64, .f32⟩
  | .hbm, ⟨9, _⟩ => ⟨S2048x32768, .f32⟩
  | .hbm, ⟨10, _⟩ => ⟨S_, .f32⟩
  | .hbm, ⟨11, _⟩ => ⟨S2048, .f32⟩
  | .hbm, ⟨12, _⟩ => ⟨S64x1, .f32⟩
  | .hbm, ⟨13, _⟩ => ⟨S1x2048, .f32⟩
  | .hbm, ⟨14, _⟩ => ⟨S64x2048, .f32⟩
  | .hbm, ⟨15, _⟩ => ⟨S64x2048, .f32⟩
  | .hbm, ⟨16, _⟩ => ⟨S64x2048, .f32⟩
  | .hbm, ⟨17, _⟩ => ⟨S32768x2048, .f32⟩
  | .hbm, ⟨18, _⟩ => ⟨S64x2048, .f32⟩
  | .hbm, ⟨19, _⟩ => ⟨S_, .f32⟩
  | .hbm, ⟨20, _⟩ => ⟨S64x2048, .f32⟩
  | .hbm, ⟨21, _⟩ => ⟨S64x2048, .f32⟩
  | .hbm, ⟨22, _⟩ => ⟨S64x2048, .f32⟩
  | .hbm, ⟨23, _⟩ => ⟨S_, .f32⟩
  | .hbm, ⟨24, _⟩ => ⟨S64x2048, .f32⟩
  | .hbm, ⟨25, _⟩ => ⟨S64x2048, .f32⟩
  | .hbm, ⟨26, _⟩ => ⟨S_, .f32⟩
  | .hbm, ⟨27, _⟩ => ⟨S64x2048, .f32⟩
  | .hbm, ⟨28, _⟩ => ⟨S64x2048, .f32⟩
  | .hbm, ⟨29, _⟩ => ⟨S_, .f32⟩
  | .hbm, ⟨30, _⟩ => ⟨S64x2048, .f32⟩
  | .hbm, ⟨31, _⟩ => ⟨S64x2048, .i1⟩
  | .hbm, ⟨32, _⟩ => ⟨S_, .f32⟩
  | .hbm, ⟨33, _⟩ => ⟨S64x2048, .f32⟩
  | .hbm, ⟨34, _⟩ => ⟨S64x2048, .i1⟩
  | .hbm, ⟨35, _⟩ => ⟨S64x512, .f32⟩
  | .hbm, ⟨36, _⟩ => ⟨S_, .f32⟩
  | .hbm, ⟨37, _⟩ => ⟨S64, .f32⟩
  | .hbm, ⟨38, _⟩ => ⟨S64x1, .f32⟩
  | .hbm, ⟨39, _⟩ => ⟨S64x1, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S2048x512, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S64x512, .f32⟩
  | .hbm, ⟨52, _⟩ => ⟨S64x512, .f32⟩
  | .hbm, ⟨53, _⟩ => ⟨S2048x512, .f32⟩
  | .hbm, ⟨54, _⟩ => ⟨S2048x512, .f32⟩
  | .hbm, ⟨55, _⟩ => ⟨S512x2048, .f32⟩
  | .hbm, ⟨56, _⟩ => ⟨S64x2048, .f32⟩
  | .hbm, ⟨57, _⟩ => ⟨S_, .f32⟩
  | .hbm, ⟨58, _⟩ => ⟨S64x2048, .f32⟩
  | .hbm, ⟨59, _⟩ => ⟨S64x2048, .f32⟩
  | .hbm, ⟨60, _⟩ => ⟨S_, .f32⟩
  | .hbm, ⟨61, _⟩ => ⟨S_, .f32⟩
  | .hbm, ⟨62, _⟩ => ⟨S64x2048, .f32⟩
  | .hbm, ⟨63, _⟩ => ⟨S64x2048, .f32⟩
  | .hbm, ⟨64, _⟩ => ⟨S_, .f32⟩
  | .hbm, ⟨65, _⟩ => ⟨S64, .f32⟩
  | .hbm, ⟨66, _⟩ => ⟨S_, .f32⟩
  | .hbm, ⟨67, _⟩ => ⟨S_, .f32⟩
  | .hbm, ⟨68, _⟩ => ⟨S64x2048, .f32⟩
  | .hbm, ⟨69, _⟩ => ⟨S64x2048, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .i1⟩
  | .hbm, ⟨80, _⟩ => ⟨S64, .i1⟩
  | .hbm, ⟨81, _⟩ => ⟨S_, .i1⟩
  | .hbm, ⟨82, _⟩ => ⟨S64, .i1⟩
  | .hbm, ⟨83, _⟩ => ⟨S64, .i1⟩
  | .hbm, ⟨84, _⟩ => ⟨S64, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_cst_11 : Ref sig .tc := ⟨.hbm, 66, rfl⟩
abbrev main_call3_v0 : Ref sig .tc := ⟨.hbm, 67, rfl⟩
abbrev main_call3_v1 : Ref sig .tc := ⟨.hbm, 68, rfl⟩
abbrev main_v40 : Ref sig .tc := ⟨.hbm, 69, rfl⟩
abbrev main_cst_12 : Ref sig .tc := ⟨.hbm, 70, rfl⟩
abbrev main_v41 : Ref sig .tc := ⟨.hbm, 71, rfl⟩
abbrev main_v42 : Ref sig .tc := ⟨.hbm, 72, rfl⟩
abbrev main_cst_13 : Ref sig .tc := ⟨.hbm, 73, rfl⟩
abbrev main_v43 : Ref sig .tc := ⟨.hbm, 74, rfl⟩
abbrev main_v44 : Ref sig .tc := ⟨.hbm, 75, rfl⟩
abbrev main_cst_14 : Ref sig .tc := ⟨.hbm, 76, rfl⟩
abbrev main_v45 : Ref sig .tc := ⟨.hbm, 77, rfl⟩
abbrev main_v46 : Ref sig .tc := ⟨.hbm, 78, rfl⟩
abbrev main_c : Ref sig .tc := ⟨.hbm, 79, rfl⟩
abbrev main_v47 : Ref sig .tc := ⟨.hbm, 80, rfl⟩
abbrev main_c_15 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_16 : Ref sig .tc := ⟨.hbm, 85, rfl⟩
abbrev main_v51 : Ref sig .tc := ⟨.hbm, 86, rfl⟩
abbrev main_cst_17 : Ref sig .tc := ⟨.hbm, 87, rfl⟩
abbrev main_call4_v0 : Ref sig .tc := ⟨.hbm, 88, rfl⟩
abbrev main_call4_v1 : Ref sig .tc := ⟨.hbm, 89, rfl⟩
abbrev main_v52 : Ref sig .tc := ⟨.hbm, 90, rfl⟩
abbrev main_cst_18 : Ref sig .tc := ⟨.hbm, 91, rfl⟩
abbrev main_v53 : Ref sig .tc := ⟨.hbm, 92, rfl⟩
abbrev main_cst_19 : Ref sig .tc := ⟨.hbm, 93, rfl⟩
abbrev main_v54 : Ref sig .tc := ⟨.hbm, 94, rfl⟩
abbrev main_cst_20 : Ref sig .tc := ⟨.hbm, 95, rfl⟩
abbrev main_v55 : Ref sig .tc := ⟨.hbm, 96, rfl⟩
abbrev main_v56 : Ref sig .tc := ⟨.hbm, 97, rfl⟩
abbrev main_cst_21 : Ref sig .tc := ⟨.hbm, 98, rfl⟩
abbrev main_call5_v0 : Ref sig .tc := ⟨.hbm, 99, rfl⟩
abbrev main_v57 : Ref sig .tc := ⟨.hbm, 100, rfl⟩

abbrev nD : Nat := 1
abbrev τ : Topo := Topo.v7x

variable {F : FTy → Type} [FloatOps F]

class Facts₀ : Prop where
  shapeCasts_S64x32x32x32_S64x32768 : S64x32x32x32.ShapeCasts S64x32768
  shapeCasts_S2048x32x32x32_S2048x32768 : S2048x32x32x32.ShapeCasts S2048x32768
  reducesTo_S64x32768_S64_d1 : S64x32768.ReducesTo [1] S64
  h_S_ : 0 < S_.numel
  reducesTo_S2048x32768_S2048_d1 : S2048x32768.ReducesTo [1] S2048
  bcast_S64_S64x1_0 : S64.BroadcastsInDim S64x1 (![0] : Fin 1 → Fin S64x1.rank)
  bcast_S2048_S1x2048_1 : S2048.BroadcastsInDim S1x2048 (![1] : Fin 1 → Fin S1x2048.rank)
  bcast_S64x1_S64x2048_0_1 : S64x1.BroadcastsInDim S64x2048 (![0, 1] : Fin 2 → Fin S64x2048.rank)
  bcast_S1x2048_S64x2048_0_1 : S1x2048.BroadcastsInDim S64x2048 (![0, 1] : Fin 2 → Fin S64x2048.rank)
  transposes_S2048x32768_S32768x2048_1_0 : S2048x32768.Transposes [1, 0] S32768x2048
  bcast_S_S64x2048 : S_.BroadcastsInDim S64x2048 (![] : Fin 0 → Fin S64x2048.rank)
  reducesTo_S64x512_S64_d1 : S64x512.ReducesTo [1] S64
  bcast_S_S64x1 : S_.BroadcastsInDim S64x1 (![] : Fin 0 → Fin S64x1.rank)
  reducesTo_S2048x512_S2048_d1 : S2048x512.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S64x1_S64x512_0_1 : S64x1.BroadcastsInDim S64x512 (![0, 1] : Fin 2 → Fin S64x512.rank)
  bcast_S2048x1_S2048x512_0_1 : S2048x1.BroadcastsInDim S2048x512 (![0, 1] : Fin 2 → Fin S2048x512.rank)
  transposes_S2048x512_S512x2048_1_0 : S2048x512.Transposes [1, 0] S512x2048
  reducesTo_S64x2048_S64_d1 : S64x2048.ReducesTo [1] S64
  bcast_S_S64 : S_.BroadcastsInDim S64 (![] : Fin 0 → Fin S64.rank)
  reducesTo_S64_S_d0 : S64.ReducesTo [0] S_
  dot_S64x32768_S32768x2048_S64x2048_1_0_0_1_n_n_wf : DotDims.WF S64x32768 S32768x2048 S64x2048 [1] [0] [0] [1] [] []
  dot_S64x512_S512x2048_S64x2048_1_0_0_1_n_n_wf : DotDims.WF S64x512 S512x2048 S64x2048 [1] [0] [0] [1] [] []

variable [Facts₀]

def dot_S64x32768_S32768x2048_S64x2048_1_0_0_1_n_n : DotDims S64x32768 S32768x2048 S64x2048 where
  lhsContracting := [1]
  rhsContracting := [0]
  lhsNonContracting := [0]
  rhsNonContracting := [1]
  lhsBatch := []
  rhsBatch := []
  wf := dot_S64x32768_S32768x2048_S64x2048_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

class Facts : Prop extends Facts₀ where

variable [Facts]
-- ==== Proof.R0Runs.lean ====
/- The accumulating product kernel (region 0) point by point: which of its two conditionals fire at a grid
   point, where its two outputs are left alone, the buffers it is run on, and the body's triple in each of the
   three control cases (first column block of a row block: the accumulators are cleared and then updated;
   a middle column block: they are updated; the last column block: they are updated and copied out). -/
import proofs.«171713_j39152921870432_1_alg».proof.Proof.Gen.KernelIdeal.Launch
import proofs.«171713_j39152921870432_1_alg».proof.Proof.Gen.KernelIdeal.Skeleton
import proofs.«171713_j39152921870432_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, decided over the 4 × 16 grid -/

/-- The first conditional clears the accumulators: it fires when the column-block coordinate is 0. -/
abbrev cond0_0 (i : grid0.Coords) : Prop :=
  (Scalar.cmpi .ne (Scalar.extui (Scalar.cmpi .eq (BitVec.ofNat 32 (i 1).val) 0#32)) 0#32) = 1#1
/-- In the row-major order of the grid that is every sixteenth point, starting with the first. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional copies the accumulators out: it fires when the column-block coordinate is 15. -/
abbrev cond0_1 (i : grid0.Coords) : Prop := k0_cond2 i = 1#1
/-- That is the last point of every run of sixteen. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are live -/

/-- The two inputs are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column block the two outputs are neither stored into nor written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
/-- At the last column block both are stored into. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The buffers the body is run on -/

/-- The four windows' current buffers at point `t`, and that each is a whole buffer. -/
abbrev ms0_0 (t : Fin cfg0.N) : Memref sig .tc .vmem S64x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)

/-- The product accumulator (64 × 512) and the squared-row-sum accumulator (512), and the views through which
    their contents and the outputs' are stated. -/
abbrev scM0_0 : Memref sig .tc .vmem S64x512 .f32 := Memref.whole cc0_scratch0
abbrev scM0_1 : Memref sig .tc .vmem S512 .f32 := Memref.whole cc0_scratch1
abbrev VS0_0 : View sig .tc .vmem S64x512 .f32 := scM0_0.view
abbrev VS0_1 : View sig .tc .vmem S512 .f32 := scM0_1.view
abbrev VO0_2 : View sig .tc .vmem S64x512 .f32 := (Memref.whole cc0_stg2_0 : Memref sig .tc .vmem S64x512 .f32).view
abbrev VO0_3 : View sig .tc .vmem S512 .f32 := (Memref.whole cc0_stg3_0 : Memref sig .tc .vmem S512 .f32).view

/-- The scoped buffers of the core that this region never touches (the second region's), each at some contents. -/
abbrev rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- What the region is entered with, the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA; rw [scopedRest0_eq]; simp only [scM0_0, scM0_1, owns_whole]; try rfl

set_option maxHeartbeats 1000000 in
/-- FIRST COLUMN BLOCK. Both conditionals decided (the first fires, the second does not), the body on whole buffers —
    the inputs at `x0`, `x1`, the outputs at any `xi2`, `xi3`, the accumulators at anything — runs to the
    inputs and outputs as they were and each accumulator with its stores written: the zero fill, then the update. The
    piece lists are found by the run itself. -/
noncomputable def kernelRun0_A (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : cond0_0 i) (hc1 : ¬cond0_1 i) (x0 : Vec F S64x2048 .f32) (x1 : Vec F S512x2048 .f32) :
    Σ' (LS0 : List (View.Piece (Elt F) S64x512 .f32)), { LS1 : List (View.Piece (Elt F) S512 .f32) //
      ∀ (xi2 : Vec F S64x512 .f32) (xi3 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gemm_kernel i arg2 harg2 arg3 harg3 arg4 harg4 arg5 harg5 arg6 harg6 arg7 harg7) K } := by
  refine ⟨?_, ?_, fun xi2 xi3 E K => ?run⟩
  case run =>
    simp only [cc0__gemm_kernel_eq_skeleton]; unfold cc0__gemm_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- A MIDDLE COLUMN BLOCK. Neither conditional fires: the body on whole buffers — the inputs at `x0`, `x1`, the
    outputs at any `xi2`, `xi3`, the accumulators at what the point before left, `xs0`, `xs1` — runs to the inputs
    and outputs as they were and each accumulator with its update written. -/
noncomputable def kernelRun0_B (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : ¬cond0_1 i) (x0 : Vec F S64x2048 .f32) (x1 : Vec F S512x2048 .f32)
    (xs0 : Vec F S64x512 .f32) (xs1 : Vec F S512 .f32) :
    Σ' (LS0 : List (View.Piece (Elt F) S64x512 .f32)), { LS1 : List (View.Piece (Elt F) S512 .f32) //
      ∀ (xi2 : Vec F S64x512 .f32) (xi3 : Vec F S512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gemm_kernel i arg2 harg2 arg3 harg3 arg4 harg4 arg5 harg5 arg6 harg6 arg7 harg7) K } := by
  refine ⟨?_, ?_, fun xi2 xi3 E K => ?run⟩
  case run =>
    simp only [cc0__gemm_kernel_eq_skeleton]; unfold cc0__gemm_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- THE LAST COLUMN BLOCK. The second conditional fires, the first does not: the body on whole buffers — the inputs at
    `x0`, `x1`, the outputs at anything, the accumulators at what the point before left — runs to the inputs as they
    were, each accumulator with its update written, and each output with the copy of its accumulator written. -/
noncomputable def kernelRun0_C (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32)
    (xs0 : Vec F S64x512 .f32) (xs1 : Vec F S512 .f32) :
    Σ' (L2 : List (View.Piece (Elt F) S64x512 .f32)) (L3 : List (View.Piece (Elt F) S512 .f32))
       (LS0 : List (View.Piece (Elt F) S64x512 .f32)), { LS1 : List (View.Piece (Elt F) S512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gemm_kernel i arg2 harg2 arg3 harg3 arg4 harg4 arg5 harg5 arg6 harg6 arg7 harg7) K } := by
  refine ⟨?_, ?_, ?_, ?_, fun E K => ?run⟩
  case run =>
    simp only [cc0__gemm_kernel_eq_skeleton]; unfold cc0__gemm_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.R0Body.lean ====
/- The accumulating product kernel (region 0) as a pipeline body: what its accumulators and outputs hold after
   every grid point, the invariant carried from point to point, the proof data, and the obligation that the
   body, run at any point from the invariant and the windows' buffers, re-establishes both. -/
import proofs.«171713_j39152921870432_1_alg».proof.Proof.R0Runs
import proofs.«171713_j39152921870432_1_alg».proof.Proof.Gen.KernelIdeal.Launch
import proofs.«171713_j39152921870432_1_alg».proof.Proof.Gen.KernelIdeal.Skeleton
import proofs.«171713_j39152921870432_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each control case leaves in the accumulators and the outputs

Each list of pieces is the one its run found; read back over arbitrary prior contents it names the contents
the case leaves, because every list ends with (or is) a store of the whole buffer. -/

/-- An output the case does not store into: nothing is said of it there (it is neither written back at such a
    point nor read at the next), so any contents stand in. -/
def out0_idle_2 : Vec F S64x512 .f32 := VO0_2.read (Elt F) VO0_2.junk
def out0_idle_3 : Vec F S512 .f32 := VO0_3.read (Elt F) VO0_3.junk

/-- First column block: the product accumulator's stores (the zero fill, then the update) cover it. -/
theorem scover0_A_0 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : cond0_0 i) (hc1 : ¬cond0_1 i) (x0 : Vec F S64x2048 .f32) (x1 : Vec F S512x2048 .f32) (y : S64x512.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S64x512.size (by sl_kernel_rfl) y

/-- What the first column block leaves in the product accumulator. -/
def sout0_A_0 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : cond0_0 i) (hc1 : ¬cond0_1 i) (x0 : Vec F S64x2048 .f32) (x1 : Vec F S512x2048 .f32) : Vec F S64x512 .f32 :=
  VS0_0.read (Elt F) (VS0_0.writes (Elt F) VS0_0.junk (kernelRun0_A c i arg2 harg2 arg3 harg3 arg4 harg4 arg5 harg5 arg6 harg6 arg7 harg7 hc0 hc1 x0 x1).1)

/-- First column block: the squared-row-sum accumulator's stores cover it. -/
theorem scover0_A_1 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : cond0_0 i) (hc1 : ¬cond0_1 i) (x0 : Vec F S64x2048 .f32) (x1 : Vec F S512x2048 .f32) (y : S512.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S512.size (by sl_kernel_rfl) y

/-- What the first column block leaves in the squared-row-sum accumulator. -/
def sout0_A_1 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : cond0_0 i) (hc1 : ¬cond0_1 i) (x0 : Vec F S64x2048 .f32) (x1 : Vec F S512x2048 .f32) : Vec F S512 .f32 :=
  VS0_1.read (Elt F) (VS0_1.writes (Elt F) VS0_1.junk (kernelRun0_A c i arg2 harg2 arg3 harg3 arg4 harg4 arg5 harg5 arg6 harg6 arg7 harg7 hc0 hc1 x0 x1).2.1)

/-- A middle column block: the product accumulator's update covers it. -/
theorem scover0_B_0 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : ¬cond0_1 i) (x0 : Vec F S64x2048 .f32) (x1 : Vec F S512x2048 .f32) (xs0 : Vec F S64x512 .f32) (xs1 : Vec F S512 .f32) (y : S64x512.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S64x512.size (by sl_kernel_rfl) y

/-- What a middle column block leaves in the product accumulator, over what the point before left. -/
def sout0_B_0 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : ¬cond0_1 i) (x0 : Vec F S64x2048 .f32) (x1 : Vec F S512x2048 .f32) (xs0 : Vec F S64x512 .f32) (xs1 : Vec F S512 .f32) : Vec F S64x512 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)

/-- A middle column block: the squared-row-sum accumulator's update covers it. -/
theorem scover0_B_1 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : ¬cond0_1 i) (x0 : Vec F S64x2048 .f32) (x1 : Vec F S512x2048 .f32) (xs0 : Vec F S64x512 .f32) (xs1 : Vec F S512 .f32) (y : S512.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S512.size (by sl_kernel_rfl) y

/-- What a middle column block leaves in the squared-row-sum accumulator. -/
def sout0_B_1 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : ¬cond0_1 i) (x0 : Vec F S64x2048 .f32) (x1 : Vec F S512x2048 .f32) (xs0 : Vec F S64x512 .f32) (xs1 : Vec F S512 .f32) : Vec F S512 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)

/-- The last column block: the copy of the product accumulator covers output 2's block. -/
theorem cover0_C_2 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) (y : S64x512.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S64x512.size (by sl_kernel_rfl) y

/-- What the last column block leaves in output 2's buffer. -/
def out0_C_2 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) : Vec F S64x512 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)

/-- The last column block: the copy of the squared row sums covers output 3's block. -/
theorem cover0_C_3 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) (y : S512.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S512.size (by sl_kernel_rfl) y

/-- What the last column block leaves in output 3's buffer. -/
def out0_C_3 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) : Vec F S512 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)

/-- The last column block: the product accumulator's update covers it. -/
theorem scover0_C_0 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) (y : S64x512.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S64x512.size (by sl_kernel_rfl) y

/-- What the last column block leaves in the product accumulator. -/
def sout0_C_0 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) : Vec F S64x512 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)

/-- The last column block: the squared-row-sum accumulator's update covers it. -/
theorem scover0_C_1 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) (y : S512.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S512.size (by sl_kernel_rfl) y

/-- What the last column block leaves in the squared-row-sum accumulator. -/
def sout0_C_1 (c : Dev nD) (i : grid0.Coords) (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) : Vec F S512 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## The accumulation, point by point -/

/-- What the two output buffers and the two accumulators hold after the body at position `n`:
    (output 2, output 3, accumulator 0, accumulator 1). Position `n` is column block `n % 16` of row block `n / 16`:
    at column block 0 the accumulators restart from zero, elsewhere they continue from position `n - 1`; the
    outputs are named only at column block 15, where the accumulators are copied into them. -/
def outsAt0 (c : Dev nD) : (n : ℕ) → n < cfg0.N → Vec F S64x512 .f32 × Vec F S512 .f32 × Vec F S64x512 .f32 × Vec F S512 .f32
  | 0, hn =>
      (out0_idle_2, out0_idle_3,
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
      (out0_idle_2, out0_idle_3,
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
        out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
      (out0_idle_2, out0_idle_3,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- At the first column block of a row block. -/
theorem outsAt0_A (c : Dev nD) (t : Fin cfg0.N) (h0 : t.val % 16 = 0) (h1 : ¬t.val % 16 = 15) :
    outsAt0 V c t.val t.isLt =
      (out0_idle_2, out0_idle_3,
        sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
        sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle column block: over what the position before left in the accumulators. -/
theorem outsAt0_B (c : Dev nD) (t : Fin cfg0.N) (h0 : ¬t.val % 16 = 0) (h1 : ¬t.val % 16 = 15) :
    outsAt0 V c t.val t.isLt =
      (out0_idle_2, out0_idle_3,
        sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
        sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans rfl)

/-- At the last column block: the same update, and the outputs at the copies. -/
theorem outsAt0_C (c : Dev nD) (t : Fin cfg0.N) (h0 : ¬t.val % 16 = 0) (h1 : t.val % 16 = 15) :
    outsAt0 V c t.val t.isLt =
      (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
        out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
        sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans rfl)

/-! ## The invariant -/

/-- The region invariant before position `n`. Before the first point it is what the launch hands over (every
    scoped buffer at anything, the generator register at some state); afterwards the two accumulators are owned at
    exactly what position `n - 1` left in them. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.2.1 ∗ owns (c : Thread nD τ) scM0_1 fullShare (outsAt0 V c n hn).2.2.2 ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (outsAt0 V c n hn).2.2.1 ∗ owns (c : Thread nD τ) scM0_1 fullShare (outsAt0 V c n hn).2.2.2 ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (outsAt0 V c (n - 1) (by omega)).2.2.1 ∗ owns (c : Thread nD τ) scM0_1 fullShare (outsAt0 V c (n - 1) (by omega)).2.2.2 ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- The invariant at a point's start, restated at the point's own position. -/
theorem PhiS_castSucc (c : Dev nD) (t : Fin cfg0.N) :
    (dat0 V c).Φ t.castSucc = PhiS V c t.val (Nat.le_of_lt t.isLt) := by
  dsimp only [dat0]; simp only [Fin.coe_castSucc]

/-- An input's current buffer holds its block at every point: the window is uncut, never idle, and the body
    leaves the block in place, so fetched there or carried over it is the block of the point's index. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- What the body is handed at point `t`: the invariant, the (empty) debt, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4800000 in
/-- The body at any point. The inputs' buffers hold their blocks; `t.val % 16` says which control case the point is
    in, so that case's run applies: it is given the accumulators from the invariant (at anything when they are about
    to be cleared, else at what the point before left) and returns them at this point's contents, which the next
    invariant names; the outputs come back untouched where they are idle and at the copies where they are not. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val % 16 = 0
  · -- first column block
    have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    rw [outsAt0_A V c t h0 h1]
    unfold sout0_A_0 sout0_A_1; (try dsimp only)
    by_cases hz : t.val = 0
    · rw [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    have hc0 : ¬cond0_0 (grid0.coords t) := fun h => h0 ((hcond0_0 t).mp h)
    by_cases h1 : t.val % 16 = 15
    · -- last column block
      have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1]
      unfold out0_C_2 out0_C_3 sout0_C_0 sout0_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · -- a middle column block
      have hc1 : ¬cond0_1 (grid0.coords t) := fun h => h1 ((hcond0_1 t).mp h)
      rw [Dat.leavesExact_idle (dat0 V c) 2 t (idleAt0_2 t hc1) (noFlush0_2 t hc1)]
      rw [Dat.leavesExact_idle (dat0 V c) 3 t (idleAt0_3 t hc1) (noFlush0_3 t hc1)]
      rw [outsAt0_B V c t h0 h1]
      unfold sout0_B_0 sout0_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch handed over: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- After the last point the invariant gives the scoped rest and the generator register back. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.R1Body.lean ====
import proofs.«171713_j39152921870432_1_alg».proof.Proof.Gen.KernelIdeal.Launch
import proofs.«171713_j39152921870432_1_alg».proof.Proof.Gen.KernelIdeal.Skeleton
import proofs.«171713_j39152921870432_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The raw cosine product: anchors (64×512) against keys (2048×512), one grid point

The second kernel region has a single grid point; each of its three windows is the whole array. The body reads
the anchors and the keys, and overwrites the whole 64×2048 result with the product of the anchors with the
transposed keys (both rounded to bf16, accumulated from zero). -/

/-- Window `w`'s block at the grid point, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The anchors' staging buffer holds the anchors when the body is called: the window is an input, never idle, uncut,
    and the body leaves it as it was. Stated for any proof data with the array at `V` and the block kept. -/
theorem anchors_staged {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The keys' staging buffer holds the keys when the body is called, for the same reasons. -/
theorem keys_staged {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-! ## The rectangles the body touches: each is its whole buffer -/

abbrev allAnchors : Rect S64x512 := Rect.unit (s := S64x512) ![0, 0] S64x512.size inb_S64x512_S64x512_0_0
abbrev allKeys : Rect S2048x512 := Rect.unit (s := S2048x512) ![0, 0] S2048x512.size inb_S2048x512_S2048x512_0_0
abbrev allRaw : Rect S64x2048 := Rect.unit (s := S64x2048) ![0, 0] S64x2048.size inb_S64x2048_S64x2048_0_0

/-- What the result's staging buffer holds after the body, from the anchors `x0` and the keys `x1`: the one store,
    over the whole buffer, of the product of what the two whole-buffer reads returned. -/
def out1_2 (x0 : Vec F S64x512 .f32) (x1 : Vec F S2048x512 .f32) : Vec F S64x2048 .f32 :=
  View.canon [⟨allRaw, k1_pay1 (View.ld x0 allAnchors) (View.ld x1 allKeys)⟩]

/-- The single store reaches every entry of the 64×2048 buffer. -/
theorem raw_covered (p : Vec F S64x2048 .f32) (y : S64x2048.Idx) :
    ∃ pc ∈ ([⟨allRaw, p⟩] : List (View.Piece (Elt F) S64x2048 .f32)), y ∈ pc.1.set :=
  View.cover_of_tiled [⟨allRaw, p⟩] S64x2048.size (by rfl) y

/-! ## The body's triple -/

set_option maxHeartbeats 1000000 in
/-- The body on whole staging buffers — anchors at `x0`, keys at `x1`, the result's at anything — returns with the two
    inputs unchanged and the result's buffer at `out1_2 x0 x1`. The read of the result's old contents that
    precedes the store feeds nothing. -/
theorem sound_kernel1 (c : Dev nD) (E : Set ℕ) (i : grid1.Coords)
    (arg0 : Memref sig .tc .vmem S64x512 .f32) (harg0 : arg0.IsWhole)
    (arg1 : Memref sig .tc .vmem S2048x512 .f32) (harg1 : arg1.IsWhole)
    (arg2 : Memref sig .tc .vmem S64x2048 .f32) (harg2 : arg2.IsWhole)
    (x0 : Vec F S64x512 .f32) (x1 : Vec F S2048x512 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__cos_kernel i arg0 harg0 arg1 harg1 arg2 harg2) K := by
  simp only [cc1__cos_kernel_eq_skeleton]; unfold cc1__cos_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (raw_covered _)

/-! ## The region's proof data -/

/-- Region 1's proof data on core `c`: the arrays as the region finds them; after the body the anchors' and keys'
    buffers hold their arrays and the result's buffer holds `out1_2` of the two; the invariant is the scoped rest
    and the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  anchors_staged V (dat1 V c) (A_eq1 V c 0) (after1_0 V c) t d
theorem before1_1 (c : Dev nD) (t : Fin cfg1.N) (d) : (dat1 V c).before 1 t d = iblk1 V c 1 t :=
  keys_staged V (dat1 V c) (A_eq1 V c 1) (after1_1 V c) t d

/-! ## The body obligation -/

/-- What the body is called with at the grid point, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at the grid point: the two input buffers hold the anchors and the keys, so the body's triple applies;
    the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Regs.lean ====
import proofs.«171713_j39152921870432_1_alg».proof.Proof.R0Body
import proofs.«171713_j39152921870432_1_alg».proof.Proof.R1Body
import proofs.«171713_j39152921870432_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the memory the program is launched from
variable (m : (ℓ : Loc nD τ sig) → Buf (Elt F) ℓ)

/-! # What the two kernel regions leave behind

The first region (the blocked product with its row sums of squares) leaves `main_v2_0` and `main_v2_1`; the host
stretch after it reads both; the second region (the raw cosine product) then leaves `main_v21`. The contents the
second region finds therefore depend on what the first left, and on nothing the second leaves: the unknowns are
named in that order. -/

/-- What the first region leaves: at `main_v2_0` the product's array after all 64 points, at `main_v2_1` the squared
    norms' array after all 64 points (any other reference: what the region found). -/
def outsGemm : Gen.Outs (F := F) := fun _ r c =>
  Function.update (Function.update (fun r : Ref sig .tc => (Gen.V1 m c r : Buf (Elt F) ((c : Thread nD τ).loc r)))
      main_v2_0 ((dat0 (fun (c : Dev nD) (b : Ref sig .tc) => Gen.V1 m c b) c).arrAt 2 cfg0.N))
    main_v2_1 ((dat0 (fun (c : Dev nD) (b : Ref sig .tc) => Gen.V1 m c b) c).arrAt 3 cfg0.N) r

/-- What both regions leave: the first region's two arrays as above, and after the second region (position 4)
    `main_v21` at the raw product's array after its one point, the region entered from what the host stretch
    makes of the first region's results. -/
def outs : Gen.Outs (F := F) := fun J r c =>
  if J = 4 then
    Function.update (fun r : Ref sig .tc => outsGemm m J r c)
      main_v21 ((dat1 (fun (c : Dev nD) (b : Ref sig .tc) => Gen.V3 m (outsGemm m) c b) c).arrAt 2 cfg1.N) r
  else outsGemm m J r c

theorem outs_two (r : Ref sig .tc) (c : Dev nD) : outs m 2 r c = outsGemm m 2 r c := if_neg (by decide)

/-- The contents after the first region read only position 2 of the unknowns, where the two stages agree. -/
theorem V2_outs (c : Dev nD) : Gen.V2 m (outs m) c = Gen.V2 m (outsGemm m) c := by
  show Function.update (Function.update (Gen.V1 m c) main_v2_0 (outs m 2 main_v2_0 c)) main_v2_1 (outs m 2 main_v2_1 c)
    = Function.update (Function.update (Gen.V1 m c) main_v2_0 (outsGemm m 2 main_v2_0 c)) main_v2_1 (outsGemm m 2 main_v2_1 c)
  rw [outs_two, outs_two]

/-- So do the contents the second region is entered from. -/
theorem V3_outs (c : Dev nD) : Gen.V3 m (outs m) c = Gen.V3 m (outsGemm m) c :=
  congrArg (StableHlo.after hostOps1) (V2_outs m c)

theorem outs_vw (c : Dev nD) : outs m 2 main_v2_0 c = (dat0 (fun (c : Dev nD) (b : Ref sig .tc) => Gen.V1 m c b) c).arrAt 2 cfg0.N := by
  rw [outs_two]; unfold outsGemm
  rw [Function.update_of_ne (by decide), Function.update_self]

theorem outs_wsq (c : Dev nD) : outs m 2 main_v2_1 c = (dat0 (fun (c : Dev nD) (b : Ref sig .tc) => Gen.V1 m c b) c).arrAt 3 cfg0.N := by
  rw [outs_two]; unfold outsGemm
  rw [Function.update_self]

theorem outs_raw (c : Dev nD) : outs m 4 main_v21 c = (dat1 (fun (c : Dev nD) (b : Ref sig .tc) => Gen.V3 m (outs m) c b) c).arrAt 2 cfg1.N := by
  have hV : (fun (c : Dev nD) (b : Ref sig .tc) => (Gen.V3 m (outs m) c b : Buf (Elt F) ((c : Thread nD τ).loc b)))
      = fun (c : Dev nD) (b : Ref sig .tc) => (Gen.V3 m (outsGemm m) c b : Buf (Elt F) ((c : Thread nD τ).loc b)) := by
    funext c b; rw [V3_outs]
  rw [hV]; unfold outs
  rw [if_pos rfl, Function.update_self]

/-! # The proof data of the two pipelines, each at what its region is entered from -/

def pdats : (p : Fin 2) → (c : Dev nD) → Dat τ (Elt F) Unit ℕ (UR sig nD τ) ℕ (cfgs p) c
  | ⟨0, _⟩ => fun c => dat0 (fun (c : Dev nD) (b : Ref sig .tc) => Gen.V1 m c b) c
  | ⟨1, _⟩ => fun c => dat1 (fun (c : Dev nD) (b : Ref sig .tc) => Gen.V3 m (outs m) c b) c

/-- What rides beside the buffers between @main's items: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! # The first region as a segment of @main -/

/-- After the first region each of its four arrays holds what the pipeline leaves: the two operands as found (no host
    stretch and no write-back touches them), the two results at the unknowns' first stage. -/
theorem exit0_arrays (c : Dev nD) : ∀ w : Fin cfg0.W,
    (pdats m 0 c).arrAt w cfg0.N = Gen.V2 m (outs m) c (Pipeline.arrRef spec0 w)
  | ⟨0, _⟩ => ((dat0 (fun (c : Dev nD) (b : Ref sig .tc) => Gen.V1 m c b) c).arrAt_in 0 rfl _).trans
      ((A_eq0 (fun (c : Dev nD) (b : Ref sig .tc) => Gen.V1 m c b) c 0).trans (Gen.V2_of m (outs m) c (Pipeline.arrRef spec0 0) (by decide)).symm)
  | ⟨1, _⟩ => ((dat0 (fun (c : Dev nD) (b : Ref sig .tc) => Gen.V1 m c b) c).arrAt_in 1 rfl _).trans
      ((A_eq0 (fun (c : Dev nD) (b : Ref sig .tc) => Gen.V1 m c b) c 1).trans (Gen.V2_of m (outs m) c (Pipeline.arrRef spec0 1) (by decide)).symm)
  | ⟨2, _⟩ => by
      show (dat0 (fun (c : Dev nD) (b : Ref sig .tc) => Gen.V1 m c b) c).arrAt 2 cfg0.N
        = Function.update (Function.update (Gen.V1 m c) main_v2_0 (outs m 2 main_v2_0 c)) main_v2_1 (outs m 2 main_v2_1 c) main_v2_0
      rw [Function.update_of_ne (StableHlo.devRef_ne_of_ne (by decide)), Function.update_self, outs_vw]
  | ⟨3, _⟩ => by
      show (dat0 (fun (c : Dev nD) (b : Ref sig .tc) => Gen.V1 m c b) c).arrAt 3 cfg0.N
        = Function.update (Function.update (Gen.V1 m c) main_v2_0 (outs m 2 main_v2_0 c)) main_v2_1 (outs m 2 main_v2_1 c) main_v2_1
      rw [Function.update_self, outs_wsq]

/-- Every buffer that is none of the region's arrays is as the region found it. -/
theorem exit0_rest (c : Dev nD) : ∀ b : Ref sig .tc, b ∉ Finset.univ.image (Pipeline.arrRef spec0) →
    Gen.V2 m (outs m) c b = Gen.V1 m c b := fun b hb =>
  Gen.V2_of m (outs m) c b fun hmem => by
    rcases List.mem_cons.mp hmem with h | hmem
    · exact hb (Finset.mem_image.mpr ⟨2, Finset.mem_univ _, h.symm⟩)
    rcases List.mem_cons.mp hmem with h | hmem
    · exact hb (Finset.mem_image.mpr ⟨3, Finset.mem_univ _, h.symm⟩)
    exact absurd hmem (List.not_mem_nil)

set_option backward.isDefEq.respectTransparency.types false in
/-- The first region: entered with every unscoped buffer at what the first host stretch leaves, left with them at
    those contents updated at the two results. Its arrays are split out of the unscoped buffers at entry and put back
    at exit; the generator register and the scoped rest go into the region's invariant and come back out of it; the
    core owes nothing; the kernel has no semaphore of its own. -/
def reg0 : Pipeline.RegionSeg (pcfgs (F := F)) Gen.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (fun (c : Dev nD) (b : Ref sig .tc) => Gen.V1 m c b) c).loose
  hwaits := Pipeline.hwaits_of_owed_zero _ _ _ _ (fun _ => ∅) (fun _ _ => 0) 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (fun (c : Dev nD) (b : Ref sig .tc) => Gen.V1 m c b) c)
    unfold Pipeline.ΦA
    iintro ⟨Hp, -, Hr⟩
    isplitl [Hr]; · iexact Hr
    iexact Hp
  hout c := by
    rw [Pipeline.ownSems0_none]
    refine BIBase.Entails.trans (hout0 (fun (c : Dev nD) (b : Ref sig .tc) => Gen.V1 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (exit0_arrays m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The second region as a segment of @main -/

/-- After the second region each of its three arrays holds what the pipeline leaves: the anchors and the keys as found,
    the raw product at the unknowns' second stage. -/
theorem exit1_arrays (c : Dev nD) : ∀ w : Fin cfg1.W,
    (pdats m 1 c).arrAt w cfg1.N = Gen.V4 m (outs m) c (Pipeline.arrRef spec1 w)
  | ⟨0, _⟩ => ((dat1 (fun (c : Dev nD) (b : Ref sig .tc) => Gen.V3 m (outs m) c b) c).arrAt_in 0 rfl _).trans
      ((A_eq1 (fun (c : Dev nD) (b : Ref sig .tc) => Gen.V3 m (outs m) c b) c 0).trans (Gen.V4_of m (outs m) c (Pipeline.arrRef spec1 0) (by decide)).symm)
  | ⟨1, _⟩ => ((dat1 (fun (c : Dev nD) (b : Ref sig .tc) => Gen.V3 m (outs m) c b) c).arrAt_in 1 rfl _).trans
      ((A_eq1 (fun (c : Dev nD) (b : Ref sig .tc) => Gen.V3 m (outs m) c b) c 1).trans (Gen.V4_of m (outs m) c (Pipeline.arrRef spec1 1) (by decide)).symm)
  | ⟨2, _⟩ => by
      show (dat1 (fun (c : Dev nD) (b : Ref sig .tc) => Gen.V3 m (outs m) c b) c).arrAt 2 cfg1.N
        = Function.update (Gen.V3 m (outs m) c) main_v21 (outs m 4 main_v21 c) main_v21
      rw [Function.update_self, outs_raw]

/-- Every buffer that is none of the region's arrays is as the region found it. -/
theorem exit1_rest (c : Dev nD) : ∀ b : Ref sig .tc, b ∉ Finset.univ.image (Pipeline.arrRef spec1) →
    Gen.V4 m (outs m) c b = Gen.V3 m (outs m) c b := fun b hb =>
  Gen.V4_of m (outs m) c b fun hmem => by
    rcases List.mem_cons.mp hmem with h | hmem
    · exact hb (Finset.mem_image.mpr ⟨2, Finset.mem_univ _, h.symm⟩)
    exact absurd hmem (List.not_mem_nil)

set_option backward.isDefEq.respectTransparency.types false in
/-- The second region: entered with every unscoped buffer at what the second host stretch leaves, left with them at
    those contents updated at the raw product. The same protocol as the first region's; here the region's invariant
    is the scoped rest beside the generator register itself. -/
def reg1 : Pipeline.RegionSeg (pcfgs (F := F)) Gen.adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (fun (c : Dev nD) (b : Ref sig .tc) => Gen.V3 m (outs m) c b) c).loose
  hwaits := Pipeline.hwaits_of_owed_zero _ _ _ _ (fun _ => ∅) (fun _ _ => 0) 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V3 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V3 m (outs m) c b) (fun b => Gen.V4 m (outs m) c b) ((pdats m 1 c).arrAt · cfg1.N) (exit1_arrays m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Glue.lean ====
/-
  What rides beside the buffers through every item of @main, and how the launch makes it: each core's generator register at some
  state and the core owing nothing. From the launch's resources (a core's `owes` at the zero tallies with nothing waited for, its
  generator register at the launch state) this holds on every core at once; at the end it gives back the core's `owes`.
-/
import proofs.«171713_j39152921870432_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The generator register at some state, and the core owing nothing. -/
abbrev Rest (c : Dev nD) : sProp 𝕄 :=
  iprop((∃ r, prngReg c r) ∗ ∃ W, owes (c : Thread nD τ) (0 : CellTallies nD τ sig Unit) W)

/-- The launch's ghost resource is the pipelines' cells and launch tokens, with nothing more to deal. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core starts with its generator register at the launch state and owing nothing. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ∗ levAts (fun _ : GSem nD τ sig => (∅ : Finset Unit)) (fun _ _ => (0 : ℕ)))
      ⊢ (|={Set.univ}=> bigSep Finset.univ (Rest (F := F)) : sProp 𝕄) := by
  refine Pipeline.initEach (fun _ : GSem nD τ sig => (∅ : Finset Unit)) (fun _ _ => (0 : ℕ)) fun c => ?_
  iintro ⟨⟨-, HO, -, Hp, -⟩, -⟩
  imodintro
  isplitl [Hp]; · iexists _; iexact Hp
  iexists ∅; iexact HO

/-- At the end the core's `owes` is there, at nothing. -/
theorem rest_owes (c : Dev nD) :
    Rest (F := F) c ⊢ (iprop(∃ W, owes (c : Thread nD τ) (0 : CellTallies nD τ sig Unit) W) : sProp 𝕄) := by
  iintro ⟨-, HO⟩; iexact HO

end Cert.KernelIdeal.Hand

end
-- ==== Proof.Frames.lean ====
/-
  The frame of the kernel's program: every weakly fair execution of @main terminates, faults nowhere, and leaves the four
  argument arrays as launched. @main is fifteen items: two kernel regions among thirteen stretches of host operations. Each
  region is a pipeline segment over its own proof data (the tiled product with its carried accumulators; the single-point
  product), entered from and left at the buffers' contents between the items; beside the buffers every core carries its
  generator register and owes nothing. No host stretch writes an argument and no region changes one.
-/
import proofs.«171713_j39152921870432_1_alg».proof.Proof.Regs
import proofs.«171713_j39152921870432_1_alg».proof.Proof.Glue

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The program runs to its end from any launch memory, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond (F := F) m emb₁ () Variants.none (fun _ => ∅) (fun _ _ => 0) (fun _ _ => rfl) ρ (outs m) (pdats m)
    0 (fun _ => iprop(emp)) (initOf (Pipeline.cells cfgs cellOf_inj) (Pipeline.launchToks cfgs cellOf_inj)) launch_ghost
    (fun _ c => Rest c) (launch_rest ρ) rest_owes
    (reg0 m) (fun _ => .rfl) (fun _ => .rfl) (reg1 m) (fun _ => .rfl) (fun _ => .rfl)

end Cert.KernelIdeal.Hand

end
-- ==== Proof.RunAll.lean ====
/-
  The kernel's program run to its end with every buffer named: each unscoped buffer of each core ends at the contents the
  items of @main leave one after the other (the fold `Gen.V15`), the regions' outputs at what their pipelines leave (`outs`).
-/
import proofs.«171713_j39152921870432_1_alg».proof.Proof.Regs
import proofs.«171713_j39152921870432_1_alg».proof.Proof.Glue
import proofs.«171713_j39152921870432_1_alg».proof.Proof.RunCond

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- Every final memory holds every unscoped buffer at the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V15 m (outs m) c b) :=
  Cert.KernelIdeal.GenP.run_cond (F := F) m emb₁ () Variants.none (fun _ => ∅) (fun _ _ => 0) (fun _ _ => rfl) ρ (outs m) (pdats m)
    0 (fun _ => iprop(emp)) (initOf (Pipeline.cells cfgs cellOf_inj) (Pipeline.launchToks cfgs cellOf_inj)) launch_ghost
    (fun _ c => Rest c) (launch_rest ρ) rest_owes
    (reg0 m) (fun _ => .rfl) (fun _ => .rfl) (reg1 m) (fun _ => .rfl) (fun _ => .rfl)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result named and the arguments unchanged. -/
theorem run_result : θ_run defs (onTc (τ := τ) (main (F := F))) ⟨m, fun _ => 0, ρ⟩ (fun r => ∀ c : Dev nD,
      r.2.mem ((c.tc : Thread nD τ).loc main_v54) = Gen.V15 m (outs m) c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v54 (by decide)),
     (h c _ (mem_uc main_arg0 (by decide))).trans (Gen.V15_main_arg0 m (outs m) c),
     (h c _ (mem_uc main_arg1 (by decide))).trans (Gen.V15_main_arg1 m (outs m) c),
     (h c _ (mem_uc main_arg2 (by decide))).trans (Gen.V15_main_arg2 m (outs m) c),
     (h c _ (mem_uc main_arg3 (by decide))).trans (Gen.V15_main_arg3 m (outs m) c)⟩)
    (run_all m ρ)

end Cert.KernelIdeal.Hand

end
-- ==== Proof.Spec.lean ====
/-
  The mathematics the two programs share, as named functions generic in the float family.
  Both programs compute a voxel score  S[b,m] = 1 − (‖v_b‖² + ‖w_m‖² − 2·⟨v_b, w_m⟩) / 32768  and a key distance
  D[b,m], and then reduce (S, D) to one scalar by the same operations: the hardest positive and negative per row
  (masked maximum and minimum of D under S > β and S < β), the hinge of their difference plus the margin, and the
  mean of that hinge over the rows that have both a positive and a negative.  `tail S D` is that last reduction,
  `score` the voxel score from the three sums it is made of, `normA` / `normK` the clamped row norms, and
  `distK` the key distance as the kernel's program forms it: 1 − raw / (‖a_b‖ · ‖k_m‖).
-/
import proofs.«171713_j39152921870432_1_alg».proof.Proof.Gen.KernelIdeal

noncomputable section

namespace Cert.Spec

open Idealize.ShloMosaic Cert.KernelIdeal Cert.KernelIdeal.Facts₀

variable {F : FTy → Type} [FloatOps F]

/-- The constant `w` at every entry of the 64 × 2048 array. -/
abbrev splat2 (w : BitVec 32) : FVec F S64x2048 .f32 :=
  broadcastInDim S64x2048 ![] bcast_S_S64x2048 (constant S_ .f32 w)

/-- The constant `w` at every entry of the 64-vector. -/
abbrev splat1 (w : BitVec 32) : FVec F S64 .f32 :=
  broadcastInDim S64 ![] bcast_S_S64 (constant S_ .f32 w)

/-- Row sums of squares of a 64 × 32768 array. -/
def rowSq (v : FVec F S64x32768 .f32) : FVec F S64 .f32 :=
  Host.reduceAdd (mulf v v) (constant S_ .f32 0x00000000#32) reducesTo_S64x32768_S64_d1 h_S_

/-- The voxel score from the row sums of squares `vsq`, `wsq` and the inner products `vw`. -/
def score (vsq : FVec F S64 .f32) (wsq : FVec F S2048 .f32) (vw : FVec F S64x2048 .f32) : FVec F S64x2048 .f32 :=
  subf (splat2 0x3F800000#32)
    (Host.divf
      (subf
        (addf (broadcastInDim S64x2048 ![0, 1] bcast_S64x1_S64x2048_0_1 (broadcastInDim S64x1 ![0] bcast_S64_S64x1_0 vsq))
              (broadcastInDim S64x2048 ![0, 1] bcast_S1x2048_S64x2048_0_1 (broadcastInDim S1x2048 ![1] bcast_S2048_S1x2048_1 wsq)))
        (mulf (splat2 0x40000000#32) vw))
      (splat2 0x47000000#32))

/-- The row norms of the anchors, clamped below at the small constant. -/
def normA (a : FVec F S64x512 .f32) : FVec F S64x1 .f32 :=
  maximumf
    (Host.sqrt (broadcastInDim S64x1 ![0] bcast_S64_S64x1_0
      (Host.reduceAdd (mulf a a) (constant S_ .f32 0x00000000#32) reducesTo_S64x512_S64_d1 h_S_)))
    (broadcastInDim S64x1 ![] bcast_S_S64x1 (constant S_ .f32 0x322BCC77#32))

/-- The row norms of the keys, clamped below at the small constant. -/
def normK (k : FVec F S2048x512 .f32) : FVec F S2048x1 .f32 :=
  maximumf
    (Host.sqrt (broadcastInDim S2048x1 ![0] bcast_S2048_S2048x1_0
      (Host.reduceAdd (mulf k k) (constant S_ .f32 0x00000000#32) reducesTo_S2048x512_S2048_d1 h_S_)))
    (broadcastInDim S2048x1 ![] bcast_S_S2048x1 (constant S_ .f32 0x322BCC77#32))

/-- The key distance as the kernel's program forms it: one minus the raw inner product over the product of norms. -/
def distK (an : FVec F S64x1 .f32) (kn : FVec F S2048x1 .f32) (raw : FVec F S64x2048 .f32) : FVec F S64x2048 .f32 :=
  subf (splat2 0x3F800000#32)
    (Host.divf raw
      (mulf (broadcastInDim S64x2048 ![0, 1] bcast_S64x1_S64x2048_0_1 an)
            (broadcastInDim S64x2048 ![0, 1] bcast_S1x2048_S64x2048_0_1 (shapeCast S1x2048 kn shapeCasts_S2048x1_S1x2048))))

/-- Where the score is above the threshold β. -/
def posMask (S : FVec F S64x2048 .f32) : IVec S64x2048 1 := cmpf (F := F) .ogt S (splat2 0x3F555555#32)
/-- Where the score is below the threshold β. -/
def negMask (S : FVec F S64x2048 .f32) : IVec S64x2048 1 := cmpf (F := F) .olt S (splat2 0x3F555555#32)

/-- Per row: the largest distance among the positives (−10⁹ standing in elsewhere, the fold started at −∞). -/
def hardPos (S D : FVec F S64x2048 .f32) : FVec F S64 .f32 :=
  Host.reduce FloatOps.maximumf
    (select (posMask S) D (broadcastInDim S64x2048 ![] bcast_S_S64x2048 (id (constant S_ .f32 0xCE6E6B28#32))))
    (constant S_ .f32 0xFF800000#32) reducesTo_S64x2048_S64_d1 h_S_

/-- Per row: the smallest distance among the negatives (10⁹ standing in elsewhere, the fold started at +∞). -/
def hardNeg (S D : FVec F S64x2048 .f32) : FVec F S64 .f32 :=
  Host.reduce FloatOps.minimumf
    (select (negMask S) D (broadcastInDim S64x2048 ![] bcast_S_S64x2048 (id (constant S_ .f32 0x4E6E6B28#32))))
    (constant S_ .f32 0x7F800000#32) reducesTo_S64x2048_S64_d1 h_S_

/-- Per row: the hinge  max(hardPos − hardNeg + margin, 0). -/
def hinge (S D : FVec F S64x2048 .f32) : FVec F S64 .f32 :=
  maximumf (addf (subf (hardPos S D) (hardNeg S D)) (splat1 0x3E4CCCCD#32)) (splat1 0x00000000#32)

/-- Per row: whether it has both a positive and a negative. -/
def valid (S : FVec F S64x2048 .f32) : IVec S64 1 :=
  andi (Host.reduce IntOp.ori (posMask S) (constantI S_ 1 0#1) reducesTo_S64x2048_S64_d1 h_S_)
       (Host.reduce IntOp.ori (negMask S) (constantI S_ 1 0#1) reducesTo_S64x2048_S64_d1 h_S_)

/-- The number of valid rows, as a float. -/
def count (S : FVec F S64x2048 .f32) : FVec F S_ .f32 :=
  Host.reduceAdd (uitofp (F := F) .f32 (valid S)) (constant S_ .f32 0x00000000#32) reducesTo_S64_S_d0 h_S_

/-- The hinge summed over the valid rows. -/
def total (S D : FVec F S64x2048 .f32) : FVec F S_ .f32 :=
  Host.reduceAdd
    (select (valid S) (hinge S D) (broadcastInDim S64 ![] bcast_S_S64 (id (constant S_ .f32 0x00000000#32))))
    (constant S_ .f32 0x00000000#32) reducesTo_S64_S_d0 h_S_

/-- The scalar both programs return from a score array and a distance array: the mean hinge over the valid rows, zero when
    there is none. -/
def tail (S D : FVec F S64x2048 .f32) : FVec F S_ .f32 :=
  select (cmpf (F := F) .ogt (count S) (constant S_ .f32 0x00000000#32))
    (Host.divf (total S D) (maximumf (count S) (constant S_ .f32 0x3F800000#32)))
    (id (constant S_ .f32 0x00000000#32))

end Cert.Spec

end
-- ==== Proof.HostK.lean ====
/-
  The host operations of the kernel's program, read back as one term.

  Between its two kernel regions and after them the program works on whole arrays: it flattens the voxel arrays to
  v : 64 × 32768 and w : 2048 × 32768, forms the voxel score  S = 1 − (‖v_b‖² + ‖w_m‖² − 2·⟨v_b, w_m⟩) / 32768  from the
  first region's two results, the clamped row norms of the anchors and the keys, the key distance
  D = 1 − raw / (‖a_b‖ · ‖k_m‖)  from the second region's result, and reduces (S, D) to the mean hinge over the rows
  that have both a positive and a negative.  Each stretch of operations is read here over an arbitrary entry valuation
  as the named function of Cert.Spec it computes; the stretches are then chained along the buffers' contents between the
  program's items, whatever the two regions leave in their result arrays.
-/
import proofs.«171713_j39152921870432_1_alg».proof.Proof.Gen.KernelIdeal.Regions
import proofs.«171713_j39152921870432_1_alg».proof.Proof.Spec
import Idealize.ShloMosaic.Lib.StableHlo.Run

noncomputable section

namespace Cert.KernelIdeal.Hand

open Idealize.ShloMosaic Idealize.ShloMosaic.TcCoe Idealize.ShloMosaic.StableHlo
open Cert.KernelIdeal Cert.KernelIdeal.Gen

variable {F : FTy → Type} [FloatOps F]

/-! ## Each stretch over an arbitrary entry valuation -/

/-- The first stretch flattens the true voxels to 64 rows of 32768. -/
theorem voxels_flat (W : Valuation τ sig (Elt F)) :
    after hostOps0 W (Proc.devRef .tc main_v0)
      = shapeCast S64x32768 (W (Proc.devRef .tc main_arg1)) shapeCasts_S64x32x32x32_S64x32768 := by
  after_results; rfl

/-- The first stretch flattens the memory values to 2048 rows of 32768. -/
theorem memory_flat (W : Valuation τ sig (Elt F)) :
    after hostOps0 W (Proc.devRef .tc main_v1)
      = shapeCast S2048x32768 (W (Proc.devRef .tc main_arg3)) shapeCasts_S2048x32x32x32_S2048x32768 := by
  after_results; rfl

/-- The second stretch forms the voxel score from the rows' sums of squares of v (which it computes), those of w and
    the inner products (which it finds in the first region's two result arrays). -/
theorem score_of (W : Valuation τ sig (Elt F)) :
    after hostOps1 W (Proc.devRef .tc main_v16)
      = Cert.Spec.score (Cert.Spec.rowSq (W (Proc.devRef .tc main_v0))) (W (Proc.devRef .tc main_v2_1))
          (W (Proc.devRef .tc main_v2_0)) := by
  after_results_simp; rfl

/-- … and where that score is above the threshold, … -/
theorem posMask_of (W : Valuation τ sig (Elt F)) :
    after hostOps1 W (Proc.devRef .tc main_v18)
      = Cert.Spec.posMask (Cert.Spec.score (Cert.Spec.rowSq (W (Proc.devRef .tc main_v0))) (W (Proc.devRef .tc main_v2_1))
          (W (Proc.devRef .tc main_v2_0))) := by
  after_results_simp; rfl

/-- … and where it is below. -/
theorem negMask_of (W : Valuation τ sig (Elt F)) :
    after hostOps1 W (Proc.devRef .tc main_v20)
      = Cert.Spec.negMask (Cert.Spec.score (Cert.Spec.rowSq (W (Proc.devRef .tc main_v0))) (W (Proc.devRef .tc main_v2_1))
          (W (Proc.devRef .tc main_v2_0))) := by
  after_results_simp; rfl

/-- The eleven stretches after the second region: the clamped norms of the anchors' and the keys' rows, the key distance
    from them and the raw inner products the second region left, the hardest positive and negative of each row under
    the two masks, the hinge, and its mean over the rows that have both. The score enters through its two masks only. -/
theorem loss_of (W : Valuation τ sig (Elt F)) (S : FVec F S64x2048 .f32)
    (hp : W (Proc.devRef .tc main_v18) = Cert.Spec.posMask S) (hn : W (Proc.devRef .tc main_v20) = Cert.Spec.negMask S) :
    after hostOps2_10 (after hostOps2_9 (after hostOps2_8 (after hostOps2_7 (after hostOps2_6 (after hostOps2_5
      (after hostOps2_4 (after hostOps2_3 (after hostOps2_2 (after hostOps2_1 (after hostOps2 W))))))))))
        (Proc.devRef .tc main_v54)
      = Cert.Spec.tail S (Cert.Spec.distK (Cert.Spec.normA (W (Proc.devRef .tc main_arg0)))
          (Cert.Spec.normK (W (Proc.devRef .tc main_arg2))) (W (Proc.devRef .tc main_v21))) := by
  after_results_simp
  rw [hp, hn]
  rfl

/-! ## Along the program's items -/

variable (m : (ℓ : Loc nD τ sig) → Buf (Elt F) ℓ) (outs : Gen.Outs (F := F)) (c : Dev nD)

/-- Before the first region the array v holds the true voxels, flattened. -/
theorem V1_v0 : Gen.V1 m c main_v0
    = shapeCast S64x32768 (m ((c : Thread nD τ).loc main_arg1)) shapeCasts_S64x32x32x32_S64x32768 :=
  voxels_flat (Gen.V0 m c)

/-- Before the first region the array w holds the memory values, flattened. -/
theorem V1_v1 : Gen.V1 m c main_v1
    = shapeCast S2048x32768 (m ((c : Thread nD τ).loc main_arg3)) shapeCasts_S2048x32x32x32_S2048x32768 :=
  memory_flat (Gen.V0 m c)

/-- The anchors reach the second region as launched. -/
theorem V3_arg0 : Gen.V3 m outs c main_arg0 = m ((c : Thread nD τ).loc main_arg0) :=
  (Gen.V3_of m outs c main_arg0 (by decide)).trans <| (Gen.V2_of m outs c main_arg0 (by decide)).trans <|
    (Gen.V1_of m c main_arg0 (by decide)).trans rfl

/-- The keys reach the second region as launched. -/
theorem V3_arg2 : Gen.V3 m outs c main_arg2 = m ((c : Thread nD τ).loc main_arg2) :=
  (Gen.V3_of m outs c main_arg2 (by decide)).trans <| (Gen.V2_of m outs c main_arg2 (by decide)).trans <|
    (Gen.V1_of m c main_arg2 (by decide)).trans rfl

/-- The first region leaves v alone. -/
theorem V2_v0 : Gen.V2 m outs c main_v0 = Gen.V1 m c main_v0 := Gen.V2_of m outs c main_v0 (by decide)

/-- After the first region the inner products are what it left in its first result array. -/
theorem V2_dots : Gen.V2 m outs c main_v2_0 = outs 2 main_v2_0 c := by
  show Function.update (Function.update (Gen.V1 m c) _ _) _ _ _ = _
  rw [Function.update_of_ne (devRef_ne_of_ne (by decide)), Function.update_self]

/-- After the first region the rows' sums of squares of w are what it left in its second result array. -/
theorem V2_wsq : Gen.V2 m outs c main_v2_1 = outs 2 main_v2_1 c := by
  show Function.update (Function.update (Gen.V1 m c) _ _) _ _ _ = _
  rw [Function.update_self]

/-- After the second region the raw inner products of anchors and keys are what it left in its result array. -/
theorem V4_raw : Gen.V4 m outs c main_v21 = outs 4 main_v21 c := by
  show Function.update (Gen.V3 m outs c) _ _ _ = _
  rw [Function.update_self]

/-- The positives' mask, as the stretches after the second region find it. -/
theorem V4_pos : Gen.V4 m outs c main_v18
    = Cert.Spec.posMask (Cert.Spec.score (Cert.Spec.rowSq (Gen.V1 m c main_v0)) (outs 2 main_v2_1 c) (outs 2 main_v2_0 c)) :=
  (Gen.V4_of m outs c main_v18 (by decide)).trans <| (posMask_of (Gen.V2 m outs c)).trans <| by
    rw [V2_v0, V2_wsq, V2_dots]

/-- The negatives' mask, as the stretches after the second region find it. -/
theorem V4_neg : Gen.V4 m outs c main_v20
    = Cert.Spec.negMask (Cert.Spec.score (Cert.Spec.rowSq (Gen.V1 m c main_v0)) (outs 2 main_v2_1 c) (outs 2 main_v2_0 c)) :=
  (Gen.V4_of m outs c main_v20 (by decide)).trans <| (negMask_of (Gen.V2 m outs c)).trans <| by
    rw [V2_v0, V2_wsq, V2_dots]

/-- The scalar the program returns: the mean hinge of the voxel score (from v's rows and the first region's two results)
    and the key distance (from the anchors' and keys' norms and the second region's result). -/
theorem result_eq : Gen.V15 m outs c main_v54
    = Cert.Spec.tail
        (Cert.Spec.score (Cert.Spec.rowSq (Gen.V1 m c main_v0)) (outs 2 main_v2_1 c) (outs 2 main_v2_0 c))
        (Cert.Spec.distK (Cert.Spec.normA (m ((c : Thread nD τ).loc main_arg0)))
          (Cert.Spec.normK (m ((c : Thread nD τ).loc main_arg2))) (outs 4 main_v21 c)) :=
  (loss_of (Gen.V4 m outs c) _ (V4_pos m outs c) (V4_neg m outs c)).trans <| by
    rw [(Gen.V4_of m outs c main_arg0 (by decide)).trans (V3_arg0 m outs c),
      (Gen.V4_of m outs c main_arg2 (by decide)).trans (V3_arg2 m outs c), V4_raw]

end Cert.KernelIdeal.Hand

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.PayIdx.lean ====
/-
  The kernels' stored values read at one entry, on the extended reals.

  At the ideal values a change of float format is the identity, a cast to the same shape is the identity and a
  transpose swaps the two coordinates; a matrix product accumulated into the zero array is the plain sum of
  products over the contracted axis, and a lane sum is the sum over the lane coordinate. So each stored value of
  the two kernels, read at an entry, is an elementary expression in the entries of the loaded blocks:

  * the two zero fills are 0 everywhere;
  * the product accumulator gains, at (b, r), the inner product of row b of the voxel block with row r of the
    memory block;
  * the norm accumulator gains, at r, the sum of squares of row r of the memory block;
  * the cosine kernel's product, at (b, r), is the inner product of anchor row b with key row r.
-/
import proofs.«171713_j39152921870432_1_alg».proof.Proof.Gen.KernelIdeal.Skeleton
import proofs.«171713_j39152921870432_1_alg».proof.Proof.LibPlainDot
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value

namespace Cert.KernelIdeal.Hand

open Cert.KernelIdeal Cert.KernelIdeal.Gen Idealize.ShloMosaic Idealize.ShloMosaic.ValueIdx

/-! ## The zero fills -/

/-- The product accumulator's initial fill is zero at every entry. -/
theorem k0_pay1_apply (y : S64x512.Idx) : k0_pay1 (F := Ideal) y = 0 := by
  unfold k0_pay1
  rw [shapeCast_self]
  exact Ideal.ofBits_zero_f32

/-- The norm accumulator's initial fill is zero at every entry. -/
theorem k0_pay2_apply (y : S512.Idx) : k0_pay2 (F := Ideal) y = 0 := by
  unfold k0_pay2
  rw [shapeCast_self]
  exact Ideal.ofBits_zero_f32

/-! ## The lane sum of squares -/

/-- A 512×2048 array summed along its second axis reads, at `r`, the sum over the 2048 columns of row `r`. -/
theorem rowSum_apply (src : FVec Ideal S512x2048 .f32) (h : S512x2048.Reduces [1] S512)
    (hφ : FKind.Formats .f32) (hacc : (0x00000000#32 : BitVec 32) = 0x00000000#32) (r : Fin 512) :
    multiReduction (F := Ideal) .add [1] S512 src 0x00000000#32 h hφ hacc (ix1 r)
      = ∑ k : Fin 2048, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- The norm accumulator after one point: its old value plus the sum of squares of the memory block's row. -/
theorem k0_pay5_apply (w : Vec Ideal S512x2048 .f32) (acc : Vec Ideal S512 .f32) (r : Fin 512) :
    k0_pay5 (F := Ideal) w acc (ix1 r) = acc (ix1 r) + ∑ k : Fin 2048, w (ix2 r k) * w (ix2 r k) := by
  unfold k0_pay5 k0_pay3
  rw [shapeCast_self, shapeCast_self, addf_apply, rowSum_apply]
  rfl

/-! ## The two matrix products -/

/-- The product accumulator after one point: its old value plus the inner product of the voxel block's row `b`
with the memory block's row `r`. -/
theorem k0_pay4_apply (w : Vec Ideal S512x2048 .f32) (v : Vec Ideal S64x2048 .f32) (acc : Vec Ideal S64x512 .f32)
    (b : Fin 64) (r : Fin 512) :
    k0_pay4 (F := Ideal) w v acc (ix2 b r) = acc (ix2 b r) + ∑ k : Fin 2048, v (ix2 b k) * w (ix2 r k) := by
  unfold k0_pay4 k0_pay3
  rw [shapeCast_self, shapeCast_self, shapeCast_self, addf_apply]
  refine congrArg (acc (ix2 b r) + ·) ?_
  refine (PlainDot.matmul_zero_apply 64 2048 512 _ _ b r).trans ?_
  refine Finset.sum_congr rfl fun k _ => ?_
  rw [transpose_ix2_apply]
  rfl

/-- The cosine kernel's product at (b, r): the inner product of anchor row `b` with key row `r`. -/
theorem k1_pay1_apply (a : Vec Ideal S64x512 .f32) (k : Vec Ideal S2048x512 .f32) (b : Fin 64) (r : Fin 2048) :
    k1_pay1 (F := Ideal) a k (ix2 b r) = ∑ f : Fin 512, a (ix2 b f) * k (ix2 r f) := by
  unfold k1_pay1
  refine (PlainDot.matmul_zero_apply 64 512 2048 _ _ b r).trans ?_
  refine Finset.sum_congr rfl fun f _ => ?_
  rw [transpose_ix2_apply]
  rfl

end Cert.KernelIdeal.Hand
-- ==== Proof.R1Value.lean ====
/-
  The raw cosine product as one function of the anchors and the keys.

  The second kernel region has one grid point, and each of its windows is its whole array. So what the point
  writes back is the whole 64×2048 result, and after the region the result array holds, at (b, r), the inner
  product of anchor row b with key row r, over the 512 features.
-/
import proofs.«171713_j39152921870432_1_alg».proof.Proof.R1Body
import proofs.«171713_j39152921870432_1_alg».proof.Proof.PayIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- Both offsets of a whole-array rectangle are zero. -/
theorem zeroOffsets2 : (![0, 0] : Fin 2 → Nat) = fun _ => 0 := funext fun a => by fin_cases a <;> rfl

/-- The inner products of the rows of `a` (64×512) with the rows of `k` (2048×512), as a 64×2048 array. -/
def rowDots (a : S64x512.Idx → EReal) (k : S2048x512.Idx → EReal) : S64x2048.Idx → EReal :=
  fun i => ∑ f : Fin 512, a (ix2 (i 0) f) * k (ix2 (i 1) f)

/-- The kernel's product of two loaded blocks, at any entry, is the inner product of the two rows. -/
theorem k1_pay1_rowDots (a : Vec Ideal S64x512 .f32) (k : Vec Ideal S2048x512 .f32) (y : S64x2048.Idx) :
    k1_pay1 (F := Ideal) a k y = rowDots a k y := by
  obtain ⟨p, q, rfl⟩ : ∃ (p : Fin 64) (q : Fin 2048), y = ix2 p q := ⟨y 0, y 1, eq_ix2 y⟩
  exact k1_pay1_apply a k p q

/-- The three windows' block indices are zero at every grid point. -/
theorem whole_blocks1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What the grid point writes back is the whole array of inner products of the anchors with the keys, as the
    region finds them. -/
theorem raw_flushed (c : Dev nD) (t : Fin cfg1.N) :
    (dat1 (F := Ideal) V c).flushed 2 t
      = ((cfg1.win 2).blk t).view.read (Elt Ideal) (rowDots (V c main_arg0) (V c main_arg2)) := by
  show (cfg1.win 2).cut (grid1.coords t) ((dat1 V c).after 2 t) = _
  rw [after1_2]
  unfold out1_2
  rw [View.canon_unit_zero zeroOffsets2]
  simp only [View.ld_unit_zero (S := S64x512) zeroOffsets2, View.ld_unit_zero (S := S2048x512) zeroOffsets2]
  obtain ⟨e00, e01, e10, e11, e20, e21⟩ := whole_blocks1 t
  funext y
  show k1_pay1 (F := Ideal) (iblk1 V c 0 t) (iblk1 V c 1 t) y
    = rowDots (V c main_arg0) (V c main_arg2) (((cfg1.win 2).blk t).view.emb y)
  rw [k1_pay1_rowDots]
  simp only [rowDots]
  refine Finset.sum_congr rfl fun f _ => ?_
  have ha : ((cfg1.win 0).blk t).view.emb (ix2 (y 0) f) = ix2 ((((cfg1.win 2).blk t).view.emb y) 0) f := by
    funext a; apply Fin.ext
    match a with
    | ⟨0, _⟩ => show win1_0.index t (0 : Fin 2) * 64 + 1 * (y 0).val = win1_2.index t (0 : Fin 2) * 64 + 1 * (y 0).val; omega
    | ⟨1, _⟩ => show win1_0.index t (1 : Fin 2) * 512 + 1 * f.val = f.val; omega
  have hk : ((cfg1.win 1).blk t).view.emb (ix2 (y 1) f) = ix2 ((((cfg1.win 2).blk t).view.emb y) 1) f := by
    funext a; apply Fin.ext
    match a with
    | ⟨0, _⟩ => show win1_1.index t (0 : Fin 2) * 2048 + 1 * (y 1).val = win1_2.index t (1 : Fin 2) * 2048 + 1 * (y 1).val; omega
    | ⟨1, _⟩ => show win1_1.index t (1 : Fin 2) * 512 + 1 * f.val = f.val; omega
  refine congrArg₂ (· * ·) ?_ ?_
  · show V c main_arg0 (((cfg1.win 0).blk t).view.emb (ix2 (y 0) f)) = _
    exact congrArg (V c main_arg0) ha
  · show V c main_arg2 (((cfg1.win 1).blk t).view.emb (ix2 (y 1) f)) = _
    exact congrArg (V c main_arg2) hk

/-- An entry of the result array is in the point's block iff each coordinate is in the block's range. -/
theorem mem_raw_block (t : Fin cfg1.N) (i : S64x2048.Idx) :
    i ∈ ((cfg1.win 2).blk t).view.set
      ↔ ∀ a : Fin 2, win1_2.index t a * S64x2048.size a ≤ (i a).val ∧ (i a).val < win1_2.index t a * S64x2048.size a + S64x2048.size a := by
  show i ∈ ((View.whole main_v21).slice (win1_2.rect t)).set ↔ _
  rw [View.set_slice_whole, Rect.mem_set_unit]
  exact Iff.rfl

/-- The one point's block covers the whole result array. -/
theorem raw_cover (i : S64x2048.Idx) :
    ∃ t : Fin cfg1.N, (cfg1.win 2).flush t = true ∧ i ∈ ((cfg1.win 2).blk t).view.set := by
  refine ⟨t1_0, flush1_2 t1_0, ?_⟩
  rw [mem_raw_block]
  obtain ⟨-, -, -, -, e20, e21⟩ := whole_blocks1 t1_0
  intro a
  match a with
  | ⟨0, _⟩ =>
    show win1_2.index t1_0 (0 : Fin 2) * 64 ≤ (i 0).val ∧ (i 0).val < win1_2.index t1_0 (0 : Fin 2) * 64 + 64
    have h0 : (i 0).val < 64 := (i 0).isLt
    omega
  | ⟨1, _⟩ =>
    show win1_2.index t1_0 (1 : Fin 2) * 2048 ≤ (i 1).val ∧ (i 1).val < win1_2.index t1_0 (1 : Fin 2) * 2048 + 2048
    have h1 : (i 1).val < 2048 := (i 1).isLt
    omega

/-- The result array after the region is the array of inner products. -/
theorem raw_array (c : Dev nD) :
    (dat1 (F := Ideal) V c).arrAt 2 cfg1.N = rowDots (V c main_arg0) (V c main_arg2) :=
  (dat1 (F := Ideal) V c).arrAt_eq_of_cover 2 (rowDots (V c main_arg0) (V c main_arg2))
    (fun t _ => raw_flushed V c t) raw_cover

/-- An entry of the array of inner products. -/
theorem rowDots_apply (a : S64x512.Idx → EReal) (k : S2048x512.Idx → EReal) (b : Fin 64) (r : Fin 2048) :
    rowDots a k (ix2 b r) = ∑ f : Fin 512, a (ix2 b f) * k (ix2 r f) := rfl

/-- The result array after the region, at (b, r): the inner product of anchor row `b` with key row `r`
    (the product of two entries taken on the extended reals). -/
theorem raw_final (V : (c : Dev nD) → (b : Ref sig .tc) → Buf (Elt Ideal) ((c : Thread nD τ).loc b)) (c : Dev nD)
    (b : Fin 64) (r : Fin 2048) :
    (dat1 (F := Ideal) V c).arrAt 2 cfg1.N (ValueIdx.ix2 b r)
      = ∑ f : Fin 512, HMul.hMul (α := EReal) (β := EReal) (γ := EReal)
          (V c main_arg0 (ValueIdx.ix2 b f)) (V c main_arg2 (ValueIdx.ix2 r f)) :=
  congrFun (raw_array V c) (ix2 b r)

end Cert.KernelIdeal.Hand

end
-- ==== Proof.RefVal.lean ====
/-
  The reference program's result, expressed through the shared functions of the mathematics.

  Write v for the 64 × 32768 array of true voxels and w for the 2048 × 32768 array of memory values (each the
  row-major flattening of its argument).  The reference forms the row sums of squares ‖v_b‖² and ‖w_m‖², the inner
  products ⟨v_b, w_m⟩, from them the voxel score, and reduces the score together with its key distance to one scalar.
  Each of these stages is, operation for operation and constant for constant, the corresponding shared function, so
  the result is `tail (score (rowSq v) ‖w‖² ⟨v,w⟩) D` with D the reference's own key distance.

  At the ideal (extended-real) floats the two sums that the kernel accumulates block by block are read here at an
  entry:  ‖w_m‖² = ∑ₙ w[m,n]·w[m,n]  and  ⟨v_b, w_m⟩ = ∑ₙ v[b,n]·w[m,n], the second through the transposed copy of w
  that the reference contracts against.
-/
import proofs.«171713_j39152921870432_1_alg».proof.Proof.RefReadP
import proofs.«171713_j39152921870432_1_alg».proof.Proof.Spec
import Idealize.ShloMosaic.Lib.ValueIdx
import Idealize.ShloMosaic.PureOps.Ideal.Laws

noncomputable section

namespace Cert.RefVal

open Cert.ReferenceIdeal Cert.ReferenceIdeal.Gen Idealize.ShloMosaic Idealize.ShloMosaic.StableHlo

section Generic

variable {F : FTy → Type} [FloatOps F]

/-- The reference's row sums of squares of the voxels are `rowSq` of the flattened voxels. -/
theorem ref_rowSq (x1 : (⟨S64x32x32x32, .f32⟩ : BufTy).Contents (Elt F)) :
    ReadP.val_main_v3 (F := F) x1 = Cert.Spec.rowSq (ReadP.val_main_v0 (F := F) x1) := by
  unfold ReadP.val_main_v3 ReadP.val_main_v2 ReadP.val_main_cst Cert.Spec.rowSq
  rfl

/-- The reference's voxel score is `score` of its three sums: 1 − (‖v_b‖² + ‖w_m‖² − 2⟨v_b, w_m⟩) / 32768. -/
theorem ref_score (x1 : (⟨S64x32x32x32, .f32⟩ : BufTy).Contents (Elt F))
    (x3 : (⟨S2048x32x32x32, .f32⟩ : BufTy).Contents (Elt F)) :
    ReadP.val_main_v19 (F := F) x1 x3
      = Cert.Spec.score (ReadP.val_main_v3 (F := F) x1) (ReadP.val_main_v5 (F := F) x3)
          (ReadP.val_main_v12 (F := F) x1 x3) := by
  unfold ReadP.val_main_v19 ReadP.val_main_v18 ReadP.val_main_cst_3 ReadP.val_main_v17 ReadP.val_main_v16
    ReadP.val_main_cst_2 ReadP.val_main_v15 ReadP.val_main_v14 ReadP.val_main_v13 ReadP.val_main_cst_1
    ReadP.val_main_v10 ReadP.val_main_v9 ReadP.val_main_v8 ReadP.val_main_v7 ReadP.val_main_v6 Cert.Spec.score
  rfl

/-- Where the reference's score is above the threshold. -/
theorem ref_posMask (x1 : (⟨S64x32x32x32, .f32⟩ : BufTy).Contents (Elt F))
    (x3 : (⟨S2048x32x32x32, .f32⟩ : BufTy).Contents (Elt F)) :
    ReadP.val_main_v21 (F := F) x1 x3 = Cert.Spec.posMask (ReadP.val_main_v19 (F := F) x1 x3) := by
  unfold ReadP.val_main_v21 ReadP.val_main_v20 ReadP.val_main_cst_4 Cert.Spec.posMask
  rfl

/-- Where the reference's score is below the threshold. -/
theorem ref_negMask (x1 : (⟨S64x32x32x32, .f32⟩ : BufTy).Contents (Elt F))
    (x3 : (⟨S2048x32x32x32, .f32⟩ : BufTy).Contents (Elt F)) :
    ReadP.val_main_v23 (F := F) x1 x3 = Cert.Spec.negMask (ReadP.val_main_v19 (F := F) x1 x3) := by
  unfold ReadP.val_main_v23 ReadP.val_main_v22 ReadP.val_main_cst_5 Cert.Spec.negMask
  rfl

/-- The reference's closing reduction of its score S and key distance D is `tail S D`: the mean over the rows having
    both a positive and a negative of the hinge of hardest positive minus hardest negative plus the margin. -/
theorem ref_tail_SD (x0 : (⟨S64x512, .f32⟩ : BufTy).Contents (Elt F))
    (x1 : (⟨S64x32x32x32, .f32⟩ : BufTy).Contents (Elt F))
    (x2 : (⟨S2048x512, .f32⟩ : BufTy).Contents (Elt F))
    (x3 : (⟨S2048x32x32x32, .f32⟩ : BufTy).Contents (Elt F)) :
    ReadP.val_main_v57 (F := F) x0 x1 x2 x3
      = Cert.Spec.tail (ReadP.val_main_v19 (F := F) x1 x3) (ReadP.val_main_v37 (F := F) x0 x2) := by
  unfold ReadP.val_main_v57 ReadP.val_main_call5_v0 ReadP.val_main_cst_21 ReadP.val_main_v56 ReadP.val_main_v55
    ReadP.val_main_cst_20 ReadP.val_main_v54 ReadP.val_main_cst_19 ReadP.val_main_v53 ReadP.val_main_cst_18
    ReadP.val_main_v52 ReadP.val_main_call4_v1 ReadP.val_main_call4_v0 ReadP.val_main_cst_17 ReadP.val_main_v51
    ReadP.val_main_cst_16 ReadP.val_main_v50 ReadP.val_main_v49 ReadP.val_main_v48 ReadP.val_main_c_15
    ReadP.val_main_v47 ReadP.val_main_c ReadP.val_main_v46 ReadP.val_main_v45 ReadP.val_main_cst_14
    ReadP.val_main_v44 ReadP.val_main_v43 ReadP.val_main_cst_13 ReadP.val_main_v42 ReadP.val_main_v41
    ReadP.val_main_cst_12 ReadP.val_main_v40 ReadP.val_main_call3_v1 ReadP.val_main_call3_v0 ReadP.val_main_cst_11
    ReadP.val_main_v39 ReadP.val_main_cst_10 ReadP.val_main_v38 ReadP.val_main_call2_v1 ReadP.val_main_call2_v0
    ReadP.val_main_cst_9
  rw [ref_posMask, ref_negMask]
  unfold Cert.Spec.tail Cert.Spec.total Cert.Spec.count Cert.Spec.valid Cert.Spec.hinge Cert.Spec.hardPos
    Cert.Spec.hardNeg
  rfl

/-- The reference's result through the shared functions: the closing reduction of the voxel score, itself made of the
    row sums of squares of v and w and their inner products, and of the reference's key distance. -/
theorem ref_tail (x0 : (⟨S64x512, .f32⟩ : BufTy).Contents (Elt F))
    (x1 : (⟨S64x32x32x32, .f32⟩ : BufTy).Contents (Elt F))
    (x2 : (⟨S2048x512, .f32⟩ : BufTy).Contents (Elt F))
    (x3 : (⟨S2048x32x32x32, .f32⟩ : BufTy).Contents (Elt F)) :
    ReadP.val_main_v57 (F := F) x0 x1 x2 x3
      = Cert.Spec.tail
          (Cert.Spec.score (Cert.Spec.rowSq (ReadP.val_main_v0 (F := F) x1)) (ReadP.val_main_v5 (F := F) x3)
            (ReadP.val_main_v12 (F := F) x1 x3))
          (ReadP.val_main_v37 (F := F) x0 x2) := by
  rw [ref_tail_SD, ref_score, ref_rowSq]

end Generic

/-- ‖w_m‖² at the ideal floats: the reference's row sum of squares of the memory values, read at row `r`. -/
theorem ref_wsq_apply (x3 : (⟨S2048x32x32x32, .f32⟩ : BufTy).Contents (Elt Ideal)) (r : Fin 2048) :
    ReadP.val_main_v5 (F := Ideal) x3 (ValueIdx.ix1 r)
      = ∑ n : Fin 32768, ReadP.val_main_v1 (F := Ideal) x3 (ValueIdx.ix2 r n)
          * ReadP.val_main_v1 (F := Ideal) x3 (ValueIdx.ix2 r n) := by
  have h0 : (ReadP.val_main_cst_0 (F := Ideal)) (Shape.Idx.first h_S_) = 0 := Ideal.ofBits_zero_f32
  rw [ReadP.val_main_v5_apply, h0, zero_add]
  refine Finset.sum_congr rfl fun n _ => ?_
  have hi : ReadP.idx_main_v5 (ValueIdx.ix1 r) n = ValueIdx.ix2 r n :=
    funext fun a => Fin.ext (by match a with | ⟨0, _⟩ => rfl | ⟨1, _⟩ => rfl)
  rw [ReadP.val_main_v4_apply, hi]
  rfl

/-- ⟨v_b, w_m⟩ at the ideal floats: the reference contracts v against the transpose of w, so its entry (b, r) is the
    sum over n of v[b,n] · w[r,n]. -/
theorem ref_vw_apply (x1 : (⟨S64x32x32x32, .f32⟩ : BufTy).Contents (Elt Ideal))
    (x3 : (⟨S2048x32x32x32, .f32⟩ : BufTy).Contents (Elt Ideal)) (b : Fin 64) (r : Fin 2048) :
    ReadP.val_main_v12 (F := Ideal) x1 x3 (ValueIdx.ix2 b r)
      = ∑ n : Fin 32768, ReadP.val_main_v0 (F := Ideal) x1 (ValueIdx.ix2 b n)
          * ReadP.val_main_v1 (F := Ideal) x3 (ValueIdx.ix2 r n) := by
  rw [ReadP.val_main_v12_apply]
  refine Finset.sum_congr rfl fun n _ => ?_
  have hl : ReadP.lidx_main_v12 (ValueIdx.ix2 b r) n = ValueIdx.ix2 b n :=
    funext fun a => Fin.ext (by match a with | ⟨0, _⟩ => rfl | ⟨1, _⟩ => rfl)
  have hr : ReadP.idx_main_v11 (ReadP.ridx_main_v12 (ValueIdx.ix2 b r) n) = ValueIdx.ix2 r n :=
    funext fun a => Fin.ext (by match a with | ⟨0, _⟩ => rfl | ⟨1, _⟩ => rfl)
  rw [ReadP.val_main_v11_apply, hl, hr]

end Cert.RefVal

end
-- ==== Proof.DistMath.lean ====
/-
  The one algebraic law of this certificate: the two spellings of the key distance agree on real inputs.
  The kernel's program forms  1 − (Σ_f a[b,f]·k[m,f]) / (A_b · K_m),  the reference  1 − Σ_f (a[b,f]/A_b)·(k[m,f]/K_m),
  with A_b = max(√(0 + Σ_f a[b,f]²), ε) and K_m likewise over the keys, ε a positive constant.  When every entry is a
  real number the sums of squares are nonnegative reals, their square roots are reals, and the maximum with ε is a
  real that is at least ε > 0; division by a positive real is multiplication by its reciprocal, and the identity is
  Σ_f p_f q_f / (A K) = Σ_f (p_f / A)(q_f / K) over the reals.  At infinite entries the two sides can differ, so the
  hypothesis that the entries are real is used here.
-/
import proofs.«171713_j39152921870432_1_alg».proof.Proof.Spec
import proofs.«171713_j39152921870432_1_alg».proof.Proof.RefReadP
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Data.EReal.Operations
import Mathlib.Data.EReal.Inv
import Mathlib.Analysis.SpecialFunctions.Pow.Real
import Mathlib.Tactic.FieldSimp
import Mathlib.Tactic.Ring
import Mathlib.Tactic.Positivity

noncomputable section

namespace Cert.DistMath

open Idealize.ShloMosaic Idealize.ShloMosaic.ValueIdx Cert.ReferenceIdeal.ReadP
open scoped BigOperators

/-! ## Real algebra on the extended reals -/

/-- A finite sum of real numbers, taken in the extended reals, is the real sum. -/
theorem coe_sum {ι : Type} (s : Finset ι) (g : ι → ℝ) :
    ∑ f ∈ s, ((g f : ℝ) : EReal) = ((∑ f ∈ s, g f : ℝ) : EReal) := by
  classical
  induction s using Finset.induction_on with
  | empty => simp
  | insert a s ha ih => rw [Finset.sum_insert ha, Finset.sum_insert ha, ih, EReal.coe_add]

/-- Division of a real by a nonzero real, taken in the extended reals, is the real quotient. -/
theorem div_real (x y : ℝ) (hy : y ≠ 0) : Ideal.div (x : EReal) (y : EReal) = ((x / y : ℝ) : EReal) := by
  rw [Ideal.div_coe hy, ← EReal.coe_mul, mul_one_div]

/-- The small constant ε (the float32 word 0x322BCC77) is a positive real: 11258999 · 2⁻⁵⁰. -/
theorem eps_word : ∃ e : ℝ, 0 < e ∧ Ideal.ofBits .f32 0x322BCC77#32 = (e : EReal) := by
  refine ⟨(11258999 : ℝ) * ((2 : ℝ) ^ 50)⁻¹, by positivity, ?_⟩
  simp [Ideal.ofBits, Ideal.ieee]

/-- Over reals p, q and positive reals A, K: (Σ_f p_f q_f) / (A K) = Σ_f (p_f / A)(q_f / K), each operation taken in the
    extended reals. -/
theorem div_sum {n : ℕ} (p q : Fin n → ℝ) (A K : ℝ) (hA : 0 < A) (hK : 0 < K) :
    Ideal.div (∑ f, (p f : EReal) * (q f : EReal)) ((A : EReal) * (K : EReal))
      = ∑ f, Ideal.div (p f : EReal) (A : EReal) * Ideal.div (q f : EReal) (K : EReal) := by
  have hAK : A * K ≠ 0 := (mul_pos hA hK).ne'
  simp_rw [div_real _ _ hA.ne', div_real _ _ hK.ne', ← EReal.coe_mul]
  rw [coe_sum, coe_sum, div_real _ _ hAK, Finset.sum_div]
  refine congrArg _ (Finset.sum_congr rfl fun f _ => ?_)
  field_simp

/-- The clamped norm max(√(0 + Σ_f g_f²), ε) of a real vector is a positive real: the sum of squares is a nonnegative
    real, its square root a real, and the maximum is at least ε. -/
theorem norm_pos {n : ℕ} (g : Fin n → ℝ) :
    ∃ A : ℝ, 0 < A ∧
      max (Ideal.sqrt (Ideal.ofBits .f32 0x00000000#32 + ∑ f, (g f : EReal) * (g f : EReal)))
        (Ideal.ofBits .f32 0x322BCC77#32) = (A : EReal) := by
  obtain ⟨e, he, hw⟩ := eps_word
  have h0 : Ideal.ofBits .f32 0x00000000#32 = (0 : EReal) := by simp [Ideal.ofBits, Ideal.ieee]
  have hs : (0 : ℝ) ≤ ∑ f, g f * g f := Finset.sum_nonneg fun f _ => mul_self_nonneg (g f)
  refine ⟨max (Real.sqrt (∑ f, g f * g f)) e, lt_max_of_lt_right he, ?_⟩
  simp_rw [← EReal.coe_mul]
  rw [h0, zero_add, coe_sum, Ideal.sqrt_coe, if_neg (not_lt.mpr hs), hw]
  exact (EReal.coe_strictMono.monotone.map_max).symm

/-! ## The two programs' norms are one term -/

/-- The kernel side's clamped anchor norms are, operation for operation, the reference's. -/
theorem normA_eq (a : FVec Ideal Cert.KernelIdeal.S64x512 .f32) :
    Cert.Spec.normA (F := Ideal) a = val_main_v26 (F := Ideal) a := rfl

/-- The kernel side's clamped key norms are, operation for operation, the reference's. -/
theorem normK_eq (k : FVec Ideal Cert.KernelIdeal.S2048x512 .f32) :
    Cert.Spec.normK (F := Ideal) k = val_main_v29 (F := Ideal) k := rfl

/-- The kernel side's key distance at (b, r): one minus the raw entry over the product of the anchor norm of row b and
    the key norm of row r (the norms being columns, broadcast along the other axis). -/
theorem distK_apply (an : FVec Ideal Cert.KernelIdeal.S64x1 .f32) (kn : FVec Ideal Cert.KernelIdeal.S2048x1 .f32)
    (raw : FVec Ideal Cert.KernelIdeal.S64x2048 .f32) (b : Fin 64) (r : Fin 2048) :
    Cert.Spec.distK (F := Ideal) an kn raw (ix2 b r)
      = Ideal.ofBits .f32 0x3F800000#32 - Ideal.div (raw (ix2 b r)) (an (ix2 b 0) * kn (ix2 r 0)) := by
  unfold Cert.Spec.distK
  show Ideal.ofBits .f32 0x3F800000#32 - Ideal.div (raw (ix2 b r))
      (broadcastInDim Cert.KernelIdeal.S64x2048 ![0, 1] _ an (ix2 b r)
        * broadcastInDim Cert.KernelIdeal.S64x2048 ![0, 1] _ (shapeCast Cert.KernelIdeal.S1x2048 kn _) (ix2 b r)) = _
  rw [broadcastInDim_apply _ _ an (ix2 b r) (ix2 b 0) (fun a => match a with
        | ⟨0, _⟩ => by show b.val = if (64 : Nat) = 1 then 0 else b.val; rw [if_neg (by decide)]
        | ⟨1, _⟩ => by show 0 = if (1 : Nat) = 1 then 0 else r.val; rw [if_pos rfl]),
      broadcastInDim_apply _ _ (shapeCast Cert.KernelIdeal.S1x2048 kn _) (ix2 b r) (ix2 (0 : Fin 1) r) (fun a => match a with
        | ⟨0, _⟩ => by show 0 = if (1 : Nat) = 1 then 0 else b.val; rw [if_pos rfl]
        | ⟨1, _⟩ => by show r.val = if (2048 : Nat) = 1 then 0 else r.val; rw [if_neg (by decide)]),
      shapeCast_apply kn _ (ix2 (0 : Fin 1) r) (ix2 r (0 : Fin 1)) (by
        rw [Shape.rowMajor_val_two, Shape.rowMajor_val_two]
        show r.val * 1 + 0 = 0 * 2048 + r.val
        omega)]

/-- The clamped norm of a row of real anchors is a positive real. -/
theorem normA_pos (α : Cert.ReferenceIdeal.S64x512.Idx → ℝ) (b : Fin 64) :
    ∃ A : ℝ, 0 < A ∧ val_main_v26 (F := Ideal) (fun i => (α i : EReal)) (ix2 b (0 : Fin 1)) = (A : EReal) := by
  rw [val_main_v26_apply, val_main_v24_apply, val_main_v25_apply, val_main_cst_6_apply, val_main_call0_v2_apply,
    val_main_call0_v1_apply, val_main_call0_cst_apply]
  exact norm_pos (fun f => α (idx_main_call0_v1 (idx_main_call0_v2 (ix2 b (0 : Fin 1))) f))

/-- The clamped norm of a row of real keys is a positive real. -/
theorem normK_pos (κ : Cert.ReferenceIdeal.S2048x512.Idx → ℝ) (r : Fin 2048) :
    ∃ K : ℝ, 0 < K ∧ val_main_v29 (F := Ideal) (fun i => (κ i : EReal)) (ix2 r (0 : Fin 1)) = (K : EReal) := by
  rw [val_main_v29_apply, val_main_v27_apply, val_main_v28_apply, val_main_cst_7_apply, val_main_call1_v2_apply,
    val_main_call1_v1_apply, val_main_call1_cst_apply]
  exact norm_pos (fun f => κ (idx_main_call1_v1 (idx_main_call1_v2 (ix2 r (0 : Fin 1))) f))

/-! ## The reference's distance at an index -/

/-- The reference's key distance at (b, r), once the two clamped norms there are named: one minus the sum over the
    features of the normalized anchor entry times the normalized key entry. -/
theorem ref_apply (α : Cert.ReferenceIdeal.S64x512.Idx → ℝ) (κ : Cert.ReferenceIdeal.S2048x512.Idx → ℝ)
    (b : Fin 64) (r : Fin 2048) (A K : ℝ)
    (hA : val_main_v26 (F := Ideal) (fun i => (α i : EReal)) (ix2 b (0 : Fin 1)) = (A : EReal))
    (hK : val_main_v29 (F := Ideal) (fun i => (κ i : EReal)) (ix2 r (0 : Fin 1)) = (K : EReal)) :
    val_main_v37 (F := Ideal) (fun i => (α i : EReal)) (fun i => (κ i : EReal)) (ix2 b r)
      = Ideal.ofBits .f32 0x3F800000#32
        - ∑ f : Fin 512, Ideal.div (α (ix2 b f) : EReal) (A : EReal) * Ideal.div (κ (ix2 r f) : EReal) (K : EReal) := by
  rw [val_main_v37_apply, val_main_v36_apply, val_main_cst_8_apply, val_main_v35_apply]
  show Ideal.ofBits .f32 0x3F800000#32 - ∑ f : Fin 512, _ = _
  refine congrArg (Ideal.ofBits .f32 0x3F800000#32 - ·) (Finset.sum_congr rfl fun f _ => ?_)
  have el : lidx_main_v35 (ix2 b r) f = ix2 b f :=
    funext fun a => by match a with | ⟨0, _⟩ => rfl | ⟨1, _⟩ => rfl
  have er : ridx_main_v35 (ix2 b r) f = ix2 f r :=
    funext fun a => by match a with | ⟨0, _⟩ => rfl | ⟨1, _⟩ => rfl
  have e30 : idx_main_v30 (ix2 b f) = ix2 b (0 : Fin 1) :=
    funext fun a => by match a with | ⟨0, _⟩ => rfl | ⟨1, _⟩ => rfl
  have e34 : idx_main_v34 (ix2 f r) = ix2 r f :=
    funext fun a => by match a with | ⟨0, _⟩ => rfl | ⟨1, _⟩ => rfl
  have e32 : idx_main_v32 (ix2 r f) = ix2 r (0 : Fin 1) :=
    funext fun a => by match a with | ⟨0, _⟩ => rfl | ⟨1, _⟩ => rfl
  rw [el, er, val_main_v31_apply, val_main_v30_apply, e30, hA, val_main_v34_apply, e34, val_main_v33_apply,
    val_main_v32_apply, e32, hK]
  rfl

/-! ## The law -/

/-- On real anchors and keys, and with the raw array their inner products, the key distance as the kernel's program
    forms it is the reference's. -/
theorem dist_eq (a : FVec Ideal Cert.KernelIdeal.S64x512 .f32) (k : FVec Ideal Cert.KernelIdeal.S2048x512 .f32)
    (ha : ∀ i, ∃ r : ℝ, a i = (r : EReal)) (hk : ∀ i, ∃ r : ℝ, k i = (r : EReal))
    (raw : FVec Ideal Cert.KernelIdeal.S64x2048 .f32)
    (hraw : ∀ (b : Fin 64) (r : Fin 2048),
      raw (ValueIdx.ix2 b r) = ∑ f : Fin 512, a (ValueIdx.ix2 b f) * k (ValueIdx.ix2 r f)) :
    Cert.Spec.distK (Cert.Spec.normA (F := Ideal) a) (Cert.Spec.normK (F := Ideal) k) raw
      = Cert.ReferenceIdeal.ReadP.val_main_v37 (F := Ideal) a k := by
  choose α hα using ha
  choose κ hκ using hk
  obtain rfl : a = fun i => (α i : EReal) := funext hα
  obtain rfl : k = fun i => (κ i : EReal) := funext hκ
  funext i
  obtain ⟨b, r, rfl⟩ : ∃ b r, i = ix2 b r := ⟨i 0, i 1, eq_ix2 i⟩
  obtain ⟨A, hA, hAe⟩ := normA_pos α b
  obtain ⟨K, hK, hKe⟩ := normK_pos κ r
  rw [distK_apply, normA_eq, normK_eq, hAe, hKe, hraw, ref_apply α κ b r A K hAe hKe]
  exact congrArg (Ideal.ofBits .f32 0x3F800000#32 - ·)
    (div_sum (fun f => α (ix2 b f)) (fun f => κ (ix2 r f)) A K hA hK)

end Cert.DistMath

end
-- ==== Proof.Finite.lean ====
/-
  From the precondition to real entries.  The precondition says that, for each of the four inputs, every entry's
  absolute value compares strictly below +∞, all four conjoined.  On the extended reals |x| < +∞ excludes exactly
  the two infinities, so every entry of the anchors and of the keys is a real number.
-/
import proofs.«171713_j39152921870432_1_alg».proof.Defs
import proofs.«171713_j39152921870432_1_alg».proof.Proof.Gen.Pre_finite_inputs
import Idealize.ShloMosaic.Lib.ReduceAll

noncomputable section

namespace Cert.Finite

open Idealize.ShloMosaic Idealize.SL.Sem

/-- The float32 word with every exponent bit set and an empty fraction denotes +∞. -/
theorem inf_word : Ideal.ofBits .f32 0x7F800000#32 = (⊤ : EReal) := by
  simp [Ideal.ofBits, Ideal.ieee]

/-- An extended real whose absolute value lies strictly below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One entry of the comparison array |x| < +∞ being 1 makes that entry of x a real number. -/
theorem entry_real {s : Shape} (x : FVec Ideal s .f32)
    (hb : Cert.Pre_finite_inputs.S_.BroadcastsInDim s (![] : Fin 0 → Fin s.rank)) (i : s.Idx)
    (h : cmpf (F := Ideal) .olt (Host.absf x)
          (broadcastInDim s ![] hb (constant Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [inf_word] at h'
  refine real_of_abs_lt_top (x i) ?_
  by_contra hn
  simp [Ideal.cmp, hn] at h'

instance : Subsingleton Cert.Pre_finite_inputs.S_.Idx := ⟨fun a b => funext fun d => d.elim0⟩

/-- Under the precondition, the comparison arrays |x| < +∞ of the anchors and of the keys are 1 at every index. -/
theorem cmp_ones (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) :
    (∀ i : Cert.KernelIdeal.S64x512.Idx, ∃ r : ℝ,
        m ((c.tc : Thread Cert.KernelIdeal.nD Cert.KernelIdeal.τ).loc Cert.KernelIdeal.main_arg0) i = (r : EReal))
    ∧ (∀ i : Cert.KernelIdeal.S2048x512.Idx, ∃ r : ℝ,
        m ((c.tc : Thread Cert.KernelIdeal.nD Cert.KernelIdeal.τ).loc Cert.KernelIdeal.main_arg2) i = (r : EReal)) := by
  have h0 := congrFun (hpre c) (fun a => a.elim0)
  dsimp only [Cert.Pre_finite_inputs.fn, Cert.Pre_finite_inputs.fn_part1] at h0
  obtain ⟨h012, -⟩ := IntOp.andi_eq_one.1 h0
  obtain ⟨h01, h2⟩ := IntOp.andi_eq_one.1 h012
  obtain ⟨h0', -⟩ := IntOp.andi_eq_one.1 h01
  exact ⟨fun i => entry_real _ _ i (Host.reduce_andi_all _ _ _ _ _ h0' i),
    fun i => entry_real _ _ i (Host.reduce_andi_all _ _ _ _ _ h2 i)⟩

/-- Under the precondition every entry of the anchors is a real number. -/
theorem anchors_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (i : Cert.KernelIdeal.S64x512.Idx) :
    ∃ r : ℝ, m ((c.tc : Thread Cert.KernelIdeal.nD Cert.KernelIdeal.τ).loc Cert.KernelIdeal.main_arg0) i = (r : EReal) :=
  (cmp_ones m hpre c).1 i

/-- Under the precondition every entry of the keys is a real number. -/
theorem keys_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (i : Cert.KernelIdeal.S2048x512.Idx) :
    ∃ r : ℝ, m ((c.tc : Thread Cert.KernelIdeal.nD Cert.KernelIdeal.τ).loc Cert.KernelIdeal.main_arg2) i = (r : EReal) :=
  (cmp_ones m hpre c).2 i

end Cert.Finite

end
-- ==== Proof.R0Blocks.lean ====
/-
  Where the blocks of the first kernel's windows sit in their arrays.

  The kernel runs on a 4 × 16 grid; the point numbered t has coordinates (i, j) = (t / 16, t % 16).  At that point
  the voxel window is the 64 × 2048 block of v at block index (0, j), the memory window the 512 × 2048 block of w at
  (i, j), the product window the 64 × 512 block of the 64 × 2048 result at (0, i), and the row-norm window the block
  of 512 entries of the 2048-vector at i.  An element of a block lies in the array, on each axis, at the block index
  times the block's extent plus its coordinate inside the block.  The two result windows are written back at the
  points with j = 15, and those sixteen-to-one blocks fill their arrays: column m of the product (entry m of the
  row norms) is under the block of the point 16·(m / 512) + 15.
-/
import proofs.«171713_j39152921870432_1_alg».proof.Proof.R0Body
import proofs.«171713_j39152921870432_1_alg».proof.Proof.Gen.KernelIdeal.Points
import proofs.«171713_j39152921870432_1_alg».proof.Proof.Gen.KernelIdeal.Launch
import Idealize.ShloMosaic.Lib.Pipeline.Value
import Idealize.ShloMosaic.Lib.ValueIdx
import Idealize.ShloMosaic.Lib.ValueIdxRank1

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The grid has 64 points. -/
theorem pt_lt0 (t : Fin cfg0.N) : t.val < 64 := lt_of_lt_of_eq t.isLt N_0

/-- The block indices at point t, with (i, j) = (t / 16, t % 16): v at (0, j), w at (i, j), the product at (0, i),
    the row norms at i. -/
theorem idx_facts0 : ∀ t : Fin cfg0.N, win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val / 16
    ∧ win0_3.index t (0 : Fin 1) = t.val / 16 :=
  (by decide +kernel : ∀ t : Fin grid0.N, _)

/-- The voxel block at point t: rows kept, column k of the block is column (t % 16)·2048 + k of v. -/
theorem vblk_apply (c : Dev nD) (t : Fin cfg0.N) (b : Fin 64) (k : Fin 2048) :
    iblk0 V c 0 t (ValueIdx.ix2 b k)
      = V c main_v0 (ValueIdx.ix2 b ⟨(t.val % 16) * 2048 + k.val, by have := k.isLt; omega⟩) := by
  obtain ⟨e0, e1, -⟩ := idx_facts0 t
  show V c main_v0 (((cfg0.win 0).blk t).view.emb (ValueIdx.ix2 b k)) = _
  have h : ((cfg0.win 0).blk t).view.emb (ValueIdx.ix2 b k)
      = ValueIdx.ix2 b ⟨(t.val % 16) * 2048 + k.val, by have := k.isLt; omega⟩ := by
    funext a; apply Fin.ext
    match a with
    | ⟨0, _⟩ => show win0_0.index t (0 : Fin 2) * 64 + 1 * b.val = b.val; omega
    | ⟨1, _⟩ => show win0_0.index t (1 : Fin 2) * 2048 + 1 * k.val = (t.val % 16) * 2048 + k.val; omega
  rw [h]

/-- The memory block at point t: row r of the block is row (t / 16)·512 + r of w, column k is column
    (t % 16)·2048 + k. -/
theorem wblk_apply (c : Dev nD) (t : Fin cfg0.N) (r : Fin 512) (k : Fin 2048) :
    iblk0 V c 1 t (ValueIdx.ix2 r k)
      = V c main_v1 (ValueIdx.ix2 ⟨(t.val / 16) * 512 + r.val, by have := r.isLt; have := pt_lt0 t; omega⟩
          ⟨(t.val % 16) * 2048 + k.val, by have := k.isLt; omega⟩) := by
  obtain ⟨-, -, e0, e1, -⟩ := idx_facts0 t
  show V c main_v1 (((cfg0.win 1).blk t).view.emb (ValueIdx.ix2 r k)) = _
  have h : ((cfg0.win 1).blk t).view.emb (ValueIdx.ix2 r k)
      = ValueIdx.ix2 ⟨(t.val / 16) * 512 + r.val, by have := r.isLt; have := pt_lt0 t; omega⟩
          ⟨(t.val % 16) * 2048 + k.val, by have := k.isLt; omega⟩ := by
    funext a; apply Fin.ext
    match a with
    | ⟨0, _⟩ => show win0_1.index t (0 : Fin 2) * 512 + 1 * r.val = (t.val / 16) * 512 + r.val; omega
    | ⟨1, _⟩ => show win0_1.index t (1 : Fin 2) * 2048 + 1 * k.val = (t.val % 16) * 2048 + k.val; omega
  rw [h]

/-- An entry of the product array is under point t's block iff each coordinate is in the block's range on its axis. -/
theorem mem_blk0_2 (t : Fin cfg0.N) (i : S64x2048.Idx) :
    i ∈ ((cfg0.win 2).blk t).view.set ↔ ∀ a : Fin 2, win0_2.index t a * S64x512.size a ≤ (i a).val
      ∧ (i a).val < win0_2.index t a * S64x512.size a + S64x512.size a := by
  show i ∈ ((View.whole main_v2_0).slice (win0_2.rect t)).set ↔ _
  rw [View.set_slice_whole, Rect.mem_set_unit]
  exact Iff.rfl

/-- An entry of the row-norm vector is under point t's block iff it is in the block's range. -/
theorem mem_blk0_3 (t : Fin cfg0.N) (i : S2048.Idx) :
    i ∈ ((cfg0.win 3).blk t).view.set ↔ ∀ a : Fin 1, win0_3.index t a * S512.size a ≤ (i a).val
      ∧ (i a).val < win0_3.index t a * S512.size a + S512.size a := by
  show i ∈ ((View.whole main_v2_1).slice (win0_3.rect t)).set ↔ _
  rw [View.set_slice_whole, Rect.mem_set_unit]
  exact Iff.rfl

/-- Every entry (b, m) of the product array is under the block some point writes back: the point 16·(m / 512) + 15. -/
theorem cover0_2 (i : S64x2048.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hN : 16 * ((i 1).val / 512) + 15 < cfg0.N := by
    show _ < grid0.N
    rw [N_0]; omega
  refine ⟨⟨16 * ((i 1).val / 512) + 15, hN⟩, (flush0_2 _).mpr ?_, ?_⟩
  · show (16 * ((i 1).val / 512) + 15) % 16 = 15
    omega
  · obtain ⟨-, -, -, -, e0, e1, -⟩ := idx_facts0 ⟨16 * ((i 1).val / 512) + 15, hN⟩
    have e1' : win0_2.index ⟨16 * ((i 1).val / 512) + 15, hN⟩ (1 : Fin 2) = (16 * ((i 1).val / 512) + 15) / 16 := e1
    rw [mem_blk0_2]
    intro a
    match a with
    | ⟨0, _⟩ =>
      show win0_2.index ⟨16 * ((i 1).val / 512) + 15, hN⟩ (0 : Fin 2) * 64 ≤ (i 0).val
        ∧ (i 0).val < win0_2.index ⟨16 * ((i 1).val / 512) + 15, hN⟩ (0 : Fin 2) * 64 + 64
      omega
    | ⟨1, _⟩ =>
      show win0_2.index ⟨16 * ((i 1).val / 512) + 15, hN⟩ (1 : Fin 2) * 512 ≤ (i 1).val
        ∧ (i 1).val < win0_2.index ⟨16 * ((i 1).val / 512) + 15, hN⟩ (1 : Fin 2) * 512 + 512
      omega

/-- Every entry m of the row-norm vector is under the block some point writes back: the point 16·(m / 512) + 15. -/
theorem cover0_3 (i : S2048.Idx) :
    ∃ t : Fin cfg0.N, (cfg0.win 3).flush t = true ∧ i ∈ ((cfg0.win 3).blk t).view.set := by
  have hi0 : (i 0).val < 2048 := (i 0).isLt
  have hN : 16 * ((i 0).val / 512) + 15 < cfg0.N := by
    show _ < grid0.N
    rw [N_0]; omega
  refine ⟨⟨16 * ((i 0).val / 512) + 15, hN⟩, (flush0_3 _).mpr ?_, ?_⟩
  · show (16 * ((i 0).val / 512) + 15) % 16 = 15
    omega
  · obtain ⟨-, -, -, -, -, -, e0⟩ := idx_facts0 ⟨16 * ((i 0).val / 512) + 15, hN⟩
    have e0' : win0_3.index ⟨16 * ((i 0).val / 512) + 15, hN⟩ (0 : Fin 1) = (16 * ((i 0).val / 512) + 15) / 16 := e0
    rw [mem_blk0_3]
    intro a
    match a with
    | ⟨0, _⟩ =>
      show win0_3.index ⟨16 * ((i 0).val / 512) + 15, hN⟩ (0 : Fin 1) * 512 ≤ (i 0).val
        ∧ (i 0).val < win0_3.index ⟨16 * ((i 0).val / 512) + 15, hN⟩ (0 : Fin 1) * 512 + 512
      omega

/-- Point t's block of a 64 × 2048 array G: rows kept, column r of the block is column (t / 16)·512 + r of G. -/
theorem oblk2_read (G : S64x2048.Idx → Elt F .f32) (t : Fin cfg0.N) (b : Fin 64) (r : Fin 512) :
    ((cfg0.win 2).blk t).view.read (Elt F) G (ValueIdx.ix2 b r)
      = G (ValueIdx.ix2 b ⟨(t.val / 16) * 512 + r.val, by have := r.isLt; have := pt_lt0 t; omega⟩) := by
  obtain ⟨-, -, -, -, e0, e1, -⟩ := idx_facts0 t
  show G (((cfg0.win 2).blk t).view.emb (ValueIdx.ix2 b r)) = _
  have h : ((cfg0.win 2).blk t).view.emb (ValueIdx.ix2 b r)
      = ValueIdx.ix2 b ⟨(t.val / 16) * 512 + r.val, by have := r.isLt; have := pt_lt0 t; omega⟩ := by
    funext a; apply Fin.ext
    match a with
    | ⟨0, _⟩ => show win0_2.index t (0 : Fin 2) * 64 + 1 * b.val = b.val; omega
    | ⟨1, _⟩ => show win0_2.index t (1 : Fin 2) * 512 + 1 * r.val = (t.val / 16) * 512 + r.val; omega
  rw [h]

/-- Point t's block of a 2048-vector G: entry r of the block is entry (t / 16)·512 + r of G. -/
theorem oblk3_read (G : S2048.Idx → Elt F .f32) (t : Fin cfg0.N) (r : Fin 512) :
    ((cfg0.win 3).blk t).view.read (Elt F) G (ValueIdx.ix1 r)
      = G (ValueIdx.ix1 ⟨(t.val / 16) * 512 + r.val, by have := r.isLt; have := pt_lt0 t; omega⟩) := by
  obtain ⟨-, -, -, -, -, -, e0⟩ := idx_facts0 t
  show G (((cfg0.win 3).blk t).view.emb (ValueIdx.ix1 r)) = _
  have h : ((cfg0.win 3).blk t).view.emb (ValueIdx.ix1 r)
      = ValueIdx.ix1 ⟨(t.val / 16) * 512 + r.val, by have := r.isLt; have := pt_lt0 t; omega⟩ := by
    funext a; apply Fin.ext
    match a with
    | ⟨0, _⟩ => show win0_3.index t (0 : Fin 1) * 512 + 1 * r.val = (t.val / 16) * 512 + r.val; omega
  rw [h]

end Cert.KernelIdeal.Hand

end
-- ==== Proof.R0Pieces.lean ====
/-
  What the accumulating product kernel leaves in its buffers at one grid point, case by case, as the kernel's payloads.

  Every load and store of the body goes through the whole buffer (the unit rectangle at zero offsets of the buffer's
  own sizes), so a load reads the contents and the last store leaves its payload. With x0 the v tile (64 × 2048),
  x1 the w tile (512 × 2048) and xs0, xs1 what the two accumulators held on entry:
  * at the first column block of a row block the accumulators are cleared first, so the update is made on zeros:
      acc0 = 0 + x0 · x1ᵀ,  acc1 = 0 + Σ_n x1[·,n]²;
  * at a middle column block  acc0 = xs0 + x0 · x1ᵀ,  acc1 = xs1 + Σ_n x1[·,n]²;
  * at the last column block the same update, and each output block receives the updated accumulator.
  Each buffer is read through its own view after the stores, written onto unspecified earlier contents: the stores cover
  the whole buffer, so those contents do not matter.
-/
import proofs.«171713_j39152921870432_1_alg».proof.Proof.R0Runs
import proofs.«171713_j39152921870432_1_alg».proof.Proof.Gen.KernelIdeal.Skeleton
import Idealize.ShloMosaic.Lib.Pipeline.Value
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The zero offsets of a rank-2 and of a rank-1 buffer, as the body spells them. -/
private theorem zeros2 : (![0, 0] : Fin 2 → Nat) = fun _ => 0 := funext fun a => by fin_cases a <;> rfl
private theorem zeros1 : (![0] : Fin 1 → Nat) = fun _ => 0 := funext fun a => by fin_cases a <;> rfl

/-- FIRST COLUMN BLOCK, the product accumulator: cleared, read back as zeros, and stored with the zeros plus the
    product of the v tile and the transposed w tile — the later store covers the earlier one. -/
theorem piece_A_0 (c : Dev nD) (i : grid0.Coords) (arg2 : Memref sig .tc .vmem S64x2048 .f32) (harg2 : arg2.IsWhole)
    (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : cond0_0 i) (hc1 : ¬cond0_1 i) (x0 : Vec F S64x2048 .f32) (x1 : Vec F S512x2048 .f32) :
    VS0_0.read (Elt F) (VS0_0.writes (Elt F) VS0_0.junk (kernelRun0_A c i arg2 harg2 arg3 harg3 arg4 harg4 arg5 harg5 arg6 harg6 arg7 harg7 hc0 hc1 x0 x1).1)
      = k0_pay4 x1 x0 (k0_pay1 (F := F)) := by
  rw [View.read_writes_junk_eq_canon]
  unfold kernelRun0_A
  dsimp only
  sl_unfold_words
  rw [View.canon_cons_unit_zero (S := S64x512) zeros2]
  simp only [View.readAt_eq_ld, harg2.read_unread, harg3.read_unread, harg6.read_unread, harg7.read_unread,
    View.ld_unit_zero (S := S64x2048) zeros2, View.ld_unit_zero (S := S512x2048) zeros2, View.ld_unit_zero (S := S64x512) zeros2,
    View.ld_unit_zero (S := S512) zeros1, View.readCov_unit_zero (S := S64x512) _ zeros2, View.readCov_unit_zero (S := S512) _ zeros1]

/-- FIRST COLUMN BLOCK, the squared-row-sum accumulator: cleared, read back as zeros, and stored with the zeros plus
    the row sums of the squared w tile. -/
theorem piece_A_1 (c : Dev nD) (i : grid0.Coords) (arg2 : Memref sig .tc .vmem S64x2048 .f32) (harg2 : arg2.IsWhole)
    (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : cond0_0 i) (hc1 : ¬cond0_1 i) (x0 : Vec F S64x2048 .f32) (x1 : Vec F S512x2048 .f32) :
    VS0_1.read (Elt F) (VS0_1.writes (Elt F) VS0_1.junk (kernelRun0_A c i arg2 harg2 arg3 harg3 arg4 harg4 arg5 harg5 arg6 harg6 arg7 harg7 hc0 hc1 x0 x1).2.1)
      = k0_pay5 x1 (k0_pay2 (F := F)) := by
  rw [View.read_writes_junk_eq_canon]
  unfold kernelRun0_A
  dsimp only
  sl_unfold_words
  rw [View.canon_cons_unit_zero (S := S512) zeros1]
  simp only [View.readAt_eq_ld, harg2.read_unread, harg3.read_unread, harg6.read_unread, harg7.read_unread,
    View.ld_unit_zero (S := S64x2048) zeros2, View.ld_unit_zero (S := S512x2048) zeros2, View.ld_unit_zero (S := S64x512) zeros2,
    View.ld_unit_zero (S := S512) zeros1, View.readCov_unit_zero (S := S64x512) _ zeros2, View.readCov_unit_zero (S := S512) _ zeros1]

/-- A MIDDLE COLUMN BLOCK, the product accumulator: what it held plus the product of the two tiles. -/
theorem piece_B_0 (c : Dev nD) (i : grid0.Coords) (arg2 : Memref sig .tc .vmem S64x2048 .f32) (harg2 : arg2.IsWhole)
    (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : ¬cond0_1 i) (x0 : Vec F S64x2048 .f32) (x1 : Vec F S512x2048 .f32) (xs0 : Vec F S64x512 .f32) (xs1 : Vec F S512 .f32) :
    VS0_0.read (Elt F) (VS0_0.writes (Elt F) VS0_0.junk (kernelRun0_B c i arg2 harg2 arg3 harg3 arg4 harg4 arg5 harg5 arg6 harg6 arg7 harg7 hc0 hc1 x0 x1 xs0 xs1).1)
      = k0_pay4 x1 x0 xs0 := by
  rw [View.read_writes_junk_eq_canon]
  unfold kernelRun0_B
  dsimp only
  sl_unfold_words
  rw [View.canon_unit_zero (S := S64x512) zeros2]
  simp only [View.readAt_eq_ld, harg2.read_unread, harg3.read_unread, harg6.read_unread, harg7.read_unread,
    View.ld_unit_zero (S := S64x2048) zeros2, View.ld_unit_zero (S := S512x2048) zeros2, View.ld_unit_zero (S := S64x512) zeros2,
    View.ld_unit_zero (S := S512) zeros1, View.readCov_unit_zero (S := S64x512) _ zeros2, View.readCov_unit_zero (S := S512) _ zeros1]

/-- A MIDDLE COLUMN BLOCK, the squared-row-sum accumulator: what it held plus the row sums of the squared w tile. -/
theorem piece_B_1 (c : Dev nD) (i : grid0.Coords) (arg2 : Memref sig .tc .vmem S64x2048 .f32) (harg2 : arg2.IsWhole)
    (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : ¬cond0_1 i) (x0 : Vec F S64x2048 .f32) (x1 : Vec F S512x2048 .f32) (xs0 : Vec F S64x512 .f32) (xs1 : Vec F S512 .f32) :
    VS0_1.read (Elt F) (VS0_1.writes (Elt F) VS0_1.junk (kernelRun0_B c i arg2 harg2 arg3 harg3 arg4 harg4 arg5 harg5 arg6 harg6 arg7 harg7 hc0 hc1 x0 x1 xs0 xs1).2.1)
      = k0_pay5 x1 xs1 := by
  rw [View.read_writes_junk_eq_canon]
  unfold kernelRun0_B
  dsimp only
  sl_unfold_words
  rw [View.canon_unit_zero (S := S512) zeros1]
  simp only [View.readAt_eq_ld, harg2.read_unread, harg3.read_unread, harg6.read_unread, harg7.read_unread,
    View.ld_unit_zero (S := S64x2048) zeros2, View.ld_unit_zero (S := S512x2048) zeros2, View.ld_unit_zero (S := S64x512) zeros2,
    View.ld_unit_zero (S := S512) zeros1, View.readCov_unit_zero (S := S64x512) _ zeros2, View.readCov_unit_zero (S := S512) _ zeros1]

/-- THE LAST COLUMN BLOCK, the first output block: the copy of the product accumulator after its update. -/
theorem piece_C_2 (c : Dev nD) (i : grid0.Coords) (arg2 : Memref sig .tc .vmem S64x2048 .f32) (harg2 : arg2.IsWhole)
    (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) :
    VO0_2.read (Elt F) (VO0_2.writes (Elt F) VO0_2.junk (kernelRun0_C c i arg2 harg2 arg3 harg3 arg4 harg4 arg5 harg5 arg6 harg6 arg7 harg7 hc0 hc1 x0 x1 xs0 xs1).1)
      = k0_pay4 x1 x0 xs0 := by
  rw [View.read_writes_junk_eq_canon]
  unfold kernelRun0_C
  dsimp only
  sl_unfold_words
  rw [View.canon_unit_zero (S := S64x512) zeros2]
  simp only [View.readAt_eq_ld, harg2.read_unread, harg3.read_unread, harg6.read_unread, harg7.read_unread,
    View.ld_unit_zero (S := S64x2048) zeros2, View.ld_unit_zero (S := S512x2048) zeros2, View.ld_unit_zero (S := S64x512) zeros2,
    View.ld_unit_zero (S := S512) zeros1, View.readCov_unit_zero (S := S64x512) _ zeros2, View.readCov_unit_zero (S := S512) _ zeros1]

/-- THE LAST COLUMN BLOCK, the second output block: the copy of the squared-row-sum accumulator after its update. -/
theorem piece_C_3 (c : Dev nD) (i : grid0.Coords) (arg2 : Memref sig .tc .vmem S64x2048 .f32) (harg2 : arg2.IsWhole)
    (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) :
    VO0_3.read (Elt F) (VO0_3.writes (Elt F) VO0_3.junk (kernelRun0_C c i arg2 harg2 arg3 harg3 arg4 harg4 arg5 harg5 arg6 harg6 arg7 harg7 hc0 hc1 x0 x1 xs0 xs1).2.1)
      = k0_pay5 x1 xs1 := by
  rw [View.read_writes_junk_eq_canon]
  unfold kernelRun0_C
  dsimp only
  sl_unfold_words
  rw [View.canon_unit_zero (S := S512) zeros1]
  simp only [View.readAt_eq_ld, harg2.read_unread, harg3.read_unread, harg6.read_unread, harg7.read_unread,
    View.ld_unit_zero (S := S64x2048) zeros2, View.ld_unit_zero (S := S512x2048) zeros2, View.ld_unit_zero (S := S64x512) zeros2,
    View.ld_unit_zero (S := S512) zeros1, View.readCov_unit_zero (S := S64x512) _ zeros2, View.readCov_unit_zero (S := S512) _ zeros1]

/-- THE LAST COLUMN BLOCK, the product accumulator itself: updated as at a middle block. -/
theorem piece_C_0 (c : Dev nD) (i : grid0.Coords) (arg2 : Memref sig .tc .vmem S64x2048 .f32) (harg2 : arg2.IsWhole)
    (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) :
    VS0_0.read (Elt F) (VS0_0.writes (Elt F) VS0_0.junk (kernelRun0_C c i arg2 harg2 arg3 harg3 arg4 harg4 arg5 harg5 arg6 harg6 arg7 harg7 hc0 hc1 x0 x1 xs0 xs1).2.2.1)
      = k0_pay4 x1 x0 xs0 := by
  rw [View.read_writes_junk_eq_canon]
  unfold kernelRun0_C
  dsimp only
  sl_unfold_words
  rw [View.canon_unit_zero (S := S64x512) zeros2]
  simp only [View.readAt_eq_ld, harg2.read_unread, harg3.read_unread, harg6.read_unread, harg7.read_unread,
    View.ld_unit_zero (S := S64x2048) zeros2, View.ld_unit_zero (S := S512x2048) zeros2, View.ld_unit_zero (S := S64x512) zeros2,
    View.ld_unit_zero (S := S512) zeros1, View.readCov_unit_zero (S := S64x512) _ zeros2, View.readCov_unit_zero (S := S512) _ zeros1]

/-- THE LAST COLUMN BLOCK, the squared-row-sum accumulator itself: updated as at a middle block. -/
theorem piece_C_1 (c : Dev nD) (i : grid0.Coords) (arg2 : Memref sig .tc .vmem S64x2048 .f32) (harg2 : arg2.IsWhole)
    (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc0 : ¬cond0_0 i) (hc1 : cond0_1 i) (x0 : Vec F S64x2048 .f32) (x1 : Vec F S512x2048 .f32) (xs0 : Vec F S64x512 .f32) (xs1 : Vec F S512 .f32) :
    VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)
      = k0_pay5 x1 xs1 := by
  rw [View.read_writes_junk_eq_canon]
  unfold kernelRun0_C
  dsimp only
  sl_unfold_words
  rw [View.canon_unit_zero (S := S512) zeros1]
  simp only [View.readAt_eq_ld, harg2.read_unread, harg3.read_unread, harg6.read_unread, harg7.read_unread,
    View.ld_unit_zero (S := S64x2048) zeros2, View.ld_unit_zero (S := S512x2048) zeros2, View.ld_unit_zero (S := S64x512) zeros2,
    View.ld_unit_zero (S := S512) zeros1, View.readCov_unit_zero (S := S64x512) _ zeros2, View.readCov_unit_zero (S := S512) _ zeros1]

end Cert.KernelIdeal.Hand

end
-- ==== Proof.SumMath.lean ====
/-
  Regrouping a sum over tiles.

  A sum over `T * K` consecutive positions is the sum, over the `T` tiles of width `K`, of each tile's own sum;
  and a running total that starts at the first tile's sum and gains one tile's sum per step is, after step `n`,
  the sum of the first `n + 1` tiles. Both hold in any commutative additive monoid, so in particular on the
  extended reals, whose addition is commutative and associative.
-/
import Mathlib.Algebra.BigOperators.Fin
import Mathlib.Algebra.BigOperators.Intervals
import Mathlib.Data.EReal.Basic

namespace Cert.SumMath

/-- Position `k` of tile `j` lies below `T * K`. -/
theorem tile_lt {T K : ℕ} (j : Fin T) (k : Fin K) : j.val * K + k.val < T * K :=
  calc j.val * K + k.val < j.val * K + K := Nat.add_lt_add_left k.isLt _
    _ = (j.val + 1) * K := (Nat.succ_mul _ _).symm
    _ ≤ T * K := Nat.mul_le_mul_right K j.isLt

/-- A sum over `T * K` positions, tile by tile. -/
theorem sum_tiles {α : Type*} [AddCommMonoid α] (T K : ℕ) (f : Fin (T * K) → α) :
    ∑ n : Fin (T * K), f n = ∑ j : Fin T, ∑ k : Fin K, f ⟨j.val * K + k.val, tile_lt j k⟩ := by
  rw [← Finset.sum_product', Finset.univ_product_univ]
  refine (Fintype.sum_equiv finProdFinEquiv _ _ fun p => ?_).symm
  refine congrArg f (Fin.ext ?_)
  show p.1.val * K + p.2.val = p.2.val + K * p.1.val
  rw [Nat.mul_comm, Nat.add_comm]

/-- A running total gaining one term per step is the sum of the terms so far. -/
theorem fold_tiles {α : Type*} [AddCommMonoid α] (s : ℕ → α) (acc : ℕ → α) (h0 : acc 0 = 0 + s 0)
    (hs : ∀ j, acc (j + 1) = acc j + s (j + 1)) (n : ℕ) : acc n = ∑ j ∈ Finset.range (n + 1), s j := by
  induction n with
  | zero => rw [h0, zero_add, Finset.sum_range_one]
  | succ n ih => rw [hs, ih, Finset.sum_range_succ _ (n + 1)]

/-- A sum over `Fin T` as a sum over the naturals below `T`, for a summand given on all naturals. -/
theorem sum_fin_eq_range {α : Type*} [AddCommMonoid α] (T : ℕ) (g : ℕ → α) :
    ∑ j : Fin T, g j.val = ∑ j ∈ Finset.range T, g j :=
  Fin.sum_univ_eq_sum_range g T

/-! ## Sixteen tiles of 2048 -/

/-- Position `k` of tile `j < 16` lies below 32768. -/
theorem tile16_lt {j : ℕ} (hj : j < 16) (k : Fin 2048) : j * 2048 + k.val < 32768 := by
  have := k.isLt
  omega

/-- The `j`-th tile's sum of a function on 32768 positions (zero past the sixteenth tile). -/
def tileSum {α : Type*} [AddCommMonoid α] (f : Fin 32768 → α) (j : ℕ) : α :=
  if hj : j < 16 then ∑ k : Fin 2048, f ⟨j * 2048 + k.val, tile16_lt hj k⟩ else 0

theorem tileSum_of_lt {α : Type*} [AddCommMonoid α] (f : Fin 32768 → α) {j : ℕ} (hj : j < 16) :
    tileSum f j = ∑ k : Fin 2048, f ⟨j * 2048 + k.val, tile16_lt hj k⟩ :=
  dif_pos hj

/-- A sum over 32768 positions is the sum of its sixteen tiles' sums. -/
theorem sum_32768_tiles {α : Type*} [AddCommMonoid α] (f : Fin 32768 → α) :
    ∑ n : Fin 32768, f n = ∑ j ∈ Finset.range 16, tileSum f j := by
  rw [← sum_fin_eq_range 16 (tileSum f)]
  refine (sum_tiles 16 2048 f).trans ?_
  refine Finset.sum_congr rfl fun j _ => ?_
  rw [tileSum_of_lt f j.isLt]

/-- The same on the extended reals, with the bound carried by the membership in the range. -/
theorem sum_32768_tiles_ereal (f : Fin 32768 → EReal) :
    ∑ n : Fin 32768, f n
      = ∑ j ∈ Finset.range 16, if hj : j < 16 then ∑ k : Fin 2048, f ⟨j * 2048 + k.val, tile16_lt hj k⟩ else 0 :=
  sum_32768_tiles f

/-- A running total over the sixteen tiles: started at the first tile's sum and gaining the next tile's sum at each
step, after the last step it is the whole sum. -/
theorem fold_32768 {α : Type*} [AddCommMonoid α] (f : Fin 32768 → α) (acc : ℕ → α)
    (h0 : acc 0 = 0 + tileSum f 0) (hs : ∀ j, acc (j + 1) = acc j + tileSum f (j + 1)) :
    acc 15 = ∑ n : Fin 32768, f n := by
  rw [sum_32768_tiles, fold_tiles (tileSum f) acc h0 hs 15]

end Cert.SumMath
-- ==== Proof.R0Value.lean ====
/-
  The product array of the first kernel region as one function of v and w.

  The region runs on a 4 × 16 grid; the point 16·i + j works on row block i of w and column block j of both arrays.
  Along a row block the 64 × 512 accumulator is cleared at j = 0 and gains, at every j, the inner products of the
  voxel block's rows with the memory block's rows over that block's 2048 columns; at j = 15 it is copied to the
  output block, which is written back to columns 512·i … of the 64 × 2048 result. So after point 16·i + j the
  accumulator holds the sum of the first j + 1 tiles of 2048 products, after j = 15 the whole sum over the 32768
  columns, and the result array ends holding, at (b, m), the inner product of row b of v with row m of w.
-/
import proofs.«171713_j39152921870432_1_alg».proof.Proof.R0Body
import proofs.«171713_j39152921870432_1_alg».proof.Proof.R0Blocks
import proofs.«171713_j39152921870432_1_alg».proof.Proof.R0Pieces
import proofs.«171713_j39152921870432_1_alg».proof.Proof.PayIdx
import proofs.«171713_j39152921870432_1_alg».proof.Proof.SumMath
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Cert.SumMath

/-! ## The contents of the product accumulator in each control case, as the kernel's update -/

section Cases
variable {F : FTy → Type} [FloatOps F]

/-- First column block: the accumulator is left at the update of the zero fill. -/
theorem accA_vw (c : Dev nD) (i : grid0.Coords) (arg2 : Memref sig .tc .vmem S64x2048 .f32) (harg2 : arg2.IsWhole) (arg3 : Memref sig .tc .vmem S512x2048 .f32) (harg3 : arg3.IsWhole) (arg4 : Memref sig .tc .vmem S64x512 .f32) (harg4 : arg4.IsWhole) (arg5 : Memref sig .tc .vmem S512 .f32) (harg5 : arg5.IsWhole) (arg6 : Memref sig .tc .vmem S64x512 .f32) (harg6 : arg6.IsWhole) (arg7 : Memref sig .tc .vmem S512 .f32) (harg7 : arg7.IsWhole) (hc0 : cond0_0 i) (hc1 : ¬cond0_1 i)
    (x0 : Vec F S64x2048 .f32) (x1 : Vec F S512x2048 .f32) :
    sout0_A_0 c i arg2 harg2 arg3 harg3 arg4 harg4 arg5 harg5 arg6 harg6 arg7 harg7 hc0 hc1 x0 x1 = k0_pay4 x1 x0 (k0_pay1 (F := F)) := by
  unfold sout0_A_0
  exact piece_A_0 c i arg2 harg2 arg3 harg3 arg4 harg4 arg5 harg5 arg6 harg6 arg7 harg7 hc0 hc1 x0 x1

/-- A middle column block: the accumulator is left at the update of what the point before left. -/
theorem accB_vw (c : Dev nD) (i : grid0.Coords) (arg2 : Memref sig .tc .vmem S64x2048 .f32) (harg2 : arg2.IsWhole) (arg3 : Memref sig .tc .vmem S512x2048 .f32) (harg3 : arg3.IsWhole) (arg4 : Memref sig .tc .vmem S64x512 .f32) (harg4 : arg4.IsWhole) (arg5 : Memref sig .tc .vmem S512 .f32) (harg5 : arg5.IsWhole) (arg6 : Memref sig .tc .vmem S64x512 .f32) (harg6 : arg6.IsWhole) (arg7 : Memref sig .tc .vmem S512 .f32) (harg7 : arg7.IsWhole) (hc0 : ¬cond0_0 i) (hc1 : ¬cond0_1 i)
    (x0 : Vec F S64x2048 .f32) (x1 : Vec F S512x2048 .f32) (xs0 : Vec F S64x512 .f32) (xs1 : Vec F S512 .f32) :
    sout0_B_0 c i arg2 harg2 arg3 harg3 arg4 harg4 arg5 harg5 arg6 harg6 arg7 harg7 hc0 hc1 x0 x1 xs0 xs1 = k0_pay4 x1 x0 xs0 := by
  unfold sout0_B_0
  exact piece_B_0 c i arg2 harg2 arg3 harg3 arg4 harg4 arg5 harg5 arg6 harg6 arg7 harg7 hc0 hc1 x0 x1 xs0 xs1

/-- The last column block: the accumulator likewise, -/
theorem accC_vw (c : Dev nD) (i : grid0.Coords) (arg2 : Memref sig .tc .vmem S64x2048 .f32) (harg2 : arg2.IsWhole) (arg3 : Memref sig .tc .vmem S512x2048 .f32) (harg3 : arg3.IsWhole) (arg4 : Memref sig .tc .vmem S64x512 .f32) (harg4 : arg4.IsWhole) (arg5 : Memref sig .tc .vmem S512 .f32) (harg5 : arg5.IsWhole) (arg6 : Memref sig .tc .vmem S64x512 .f32) (harg6 : arg6.IsWhole) (arg7 : Memref sig .tc .vmem S512 .f32) (harg7 : arg7.IsWhole) (hc0 : ¬cond0_0 i) (hc1 : cond0_1 i)
    (x0 : Vec F S64x2048 .f32) (x1 : Vec F S512x2048 .f32) (xs0 : Vec F S64x512 .f32) (xs1 : Vec F S512 .f32) :
    sout0_C_0 c i arg2 harg2 arg3 harg3 arg4 harg4 arg5 harg5 arg6 harg6 arg7 harg7 hc0 hc1 x0 x1 xs0 xs1 = k0_pay4 x1 x0 xs0 := by
  unfold sout0_C_0
  exact piece_C_0 c i arg2 harg2 arg3 harg3 arg4 harg4 arg5 harg5 arg6 harg6 arg7 harg7 hc0 hc1 x0 x1 xs0 xs1

/-- and the output block is the copy of it. -/
theorem outC_vw (c : Dev nD) (i : grid0.Coords) (arg2 : Memref sig .tc .vmem S64x2048 .f32) (harg2 : arg2.IsWhole) (arg3 : Memref sig .tc .vmem S512x2048 .f32) (harg3 : arg3.IsWhole) (arg4 : Memref sig .tc .vmem S64x512 .f32) (harg4 : arg4.IsWhole) (arg5 : Memref sig .tc .vmem S512 .f32) (harg5 : arg5.IsWhole) (arg6 : Memref sig .tc .vmem S64x512 .f32) (harg6 : arg6.IsWhole) (arg7 : Memref sig .tc .vmem S512 .f32) (harg7 : arg7.IsWhole) (hc0 : ¬cond0_0 i) (hc1 : cond0_1 i)
    (x0 : Vec F S64x2048 .f32) (x1 : Vec F S512x2048 .f32) (xs0 : Vec F S64x512 .f32) (xs1 : Vec F S512 .f32) :
    out0_C_2 c i arg2 harg2 arg3 harg3 arg4 harg4 arg5 harg5 arg6 harg6 arg7 harg7 hc0 hc1 x0 x1 xs0 xs1 = k0_pay4 x1 x0 xs0 := by
  unfold out0_C_2
  exact piece_C_2 c i arg2 harg2 arg3 harg3 arg4 harg4 arg5 harg5 arg6 harg6 arg7 harg7 hc0 hc1 x0 x1 xs0 xs1

end Cases

/-! ## The sums the accumulator runs through -/

/-- Row `m` of the 2048 × 32768 array, zero past the last row, so that a row number computed from a grid point
    needs no bound. -/
def wrow_vw (w : S2048x32768.Idx → EReal) (m : ℕ) (n : Fin 32768) : EReal :=
  if hm : m < 2048 then w (ix2 ⟨m, hm⟩ n) else 0

/-- The products v[b, n] · w[m, n] along the 32768 columns. -/
def terms_vw (v : S64x32768.Idx → EReal) (w : S2048x32768.Idx → EReal) (b : Fin 64) (m : ℕ) : Fin 32768 → EReal :=
  fun n => v (ix2 b n) * wrow_vw w m n

/-- The inner products of the rows of `v` with the rows of `w`, as a 64 × 2048 array. -/
def dots_vw (v : S64x32768.Idx → EReal) (w : S2048x32768.Idx → EReal) : S64x2048.Idx → EReal :=
  fun i => ∑ n : Fin 32768, v (ix2 (i 0) n) * w (ix2 (i 1) n)

theorem dots_vw_apply (v : S64x32768.Idx → EReal) (w : S2048x32768.Idx → EReal) (b : Fin 64) (m : Fin 2048) :
    dots_vw v w (ix2 b m) = ∑ n : Fin 32768, v (ix2 b n) * w (ix2 m n) := rfl

/-- The whole sum of the products of row `b` with row `m` is that entry of the array of inner products. -/
theorem sum_terms_vw (v : S64x32768.Idx → EReal) (w : S2048x32768.Idx → EReal) (b : Fin 64) (m : ℕ) (hm : m < 2048) :
    ∑ n : Fin 32768, terms_vw v w b m n = dots_vw v w (ix2 b ⟨m, hm⟩) := by
  rw [dots_vw_apply]
  refine Finset.sum_congr rfl fun n _ => ?_
  unfold terms_vw wrow_vw
  rw [dif_pos hm]

/-! ## The arrays and blocks, named at their literal types -/

-- the TensorCore's buffer contents when the region is entered
variable (V : (c : Dev nD) → (b : Ref sig .tc) → Buf (Elt Ideal) ((c : Thread nD τ).loc b))

/-- The voxel array (64 × 32768) and the memory array (2048 × 32768) as the region finds them. -/
abbrev varr_vw (c : Dev nD) : Vec Ideal S64x32768 .f32 := V c main_v0
abbrev warr_vw (c : Dev nD) : Vec Ideal S2048x32768 .f32 := V c main_v1
/-- Their blocks at grid point `t`. -/
abbrev vblk_vw (c : Dev nD) (t : Fin cfg0.N) : Vec Ideal S64x2048 .f32 := iblk0 V c 0 t
abbrev wblk_vw (c : Dev nD) (t : Fin cfg0.N) : Vec Ideal S512x2048 .f32 := iblk0 V c 1 t

/-- The inner product of row `b` of the voxel block with row `r` of the memory block at point `t` is tile
    `t % 16` of the products of row `b` of v with row `(t / 16)·512 + r` of w. -/
theorem blockDot_vw (c : Dev nD) (t : Fin cfg0.N) (b : Fin 64) (r : Fin 512) :
    ∑ k : Fin 2048, vblk_vw V c t (ix2 b k) * wblk_vw V c t (ix2 r k)
      = tileSum (terms_vw (varr_vw V c) (warr_vw V c) b ((t.val / 16) * 512 + r.val)) (t.val % 16) := by
  have hj : t.val % 16 < 16 := Nat.mod_lt _ (by decide)
  have hm : (t.val / 16) * 512 + r.val < 2048 := by have := r.isLt; have := pt_lt0 t; omega
  rw [tileSum_of_lt _ hj]
  refine Finset.sum_congr rfl fun k _ => ?_
  unfold terms_vw wrow_vw
  rw [dif_pos hm]
  exact congrArg₂ (· * ·) (vblk_apply V c t b k) (wblk_apply V c t r k)

/-! ## The accumulator point by point -/

/-- At the first column block of a row block the accumulator holds the first tile's sum. -/
theorem stepA_vw (c : Dev nD) (n : ℕ) (h : n < cfg0.N) (hz : n % 16 = 0) (b : Fin 64) (r : Fin 512) :
    (outsAt0 V c n h).2.2.1 (ix2 b r)
      = tileSum (terms_vw (varr_vw V c) (warr_vw V c) b ((n / 16) * 512 + r.val)) (n % 16) := by
  have h1 : ¬n % 16 = 15 := by omega
  rw [outsAt0_A V c ⟨n, h⟩ hz h1]
  dsimp only
  refine (congrFun (accA_vw (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _)
    ((hcond0_0 ⟨n, h⟩).mpr hz) (fun h' => h1 ((hcond0_1 ⟨n, h⟩).mp h')) (iblk0 V c 0 ⟨n, h⟩) (iblk0 V c 1 ⟨n, h⟩)) (ix2 b r)).trans ?_
  refine (k0_pay4_apply (wblk_vw V c ⟨n, h⟩) (vblk_vw V c ⟨n, h⟩) (k0_pay1 (F := Ideal)) b r).trans ?_
  rw [k0_pay1_apply, zero_add]
  exact blockDot_vw V c ⟨n, h⟩ b r

/-- At any other column block it gains that block's tile. -/
theorem stepS_vw (c : Dev nD) (n : ℕ) (h : n + 1 < cfg0.N) (hz : ¬(n + 1) % 16 = 0) (b : Fin 64) (r : Fin 512) :
    (outsAt0 V c (n + 1) h).2.2.1 (ix2 b r)
      = (outsAt0 V c n (Nat.lt_of_succ_lt h)).2.2.1 (ix2 b r)
        + tileSum (terms_vw (varr_vw V c) (warr_vw V c) b (((n + 1) / 16) * 512 + r.val)) ((n + 1) % 16) := by
  by_cases h15 : (n + 1) % 16 = 15
  · rw [outsAt0_C V c ⟨n + 1, h⟩ hz h15]
    dsimp only
    refine (congrFun (accC_vw (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _)
      (fun h' => hz ((hcond0_0 ⟨n + 1, h⟩).mp h')) ((hcond0_1 ⟨n + 1, h⟩).mpr h15) (iblk0 V c 0 ⟨n + 1, h⟩) (iblk0 V c 1 ⟨n + 1, h⟩)
      (outsAt0 V c n (Nat.lt_of_succ_lt h)).2.2.1 (outsAt0 V c n (Nat.lt_of_succ_lt h)).2.2.2) (ix2 b r)).trans ?_
    refine (k0_pay4_apply (wblk_vw V c ⟨n + 1, h⟩) (vblk_vw V c ⟨n + 1, h⟩) (outsAt0 V c n (Nat.lt_of_succ_lt h)).2.2.1 b r).trans ?_
    exact congrArg ((outsAt0 V c n (Nat.lt_of_succ_lt h)).2.2.1 (ix2 b r) + ·) (blockDot_vw V c ⟨n + 1, h⟩ b r)
  · rw [outsAt0_B V c ⟨n + 1, h⟩ hz h15]
    dsimp only
    refine (congrFun (accB_vw (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _)
      (fun h' => hz ((hcond0_0 ⟨n + 1, h⟩).mp h')) (fun h' => h15 ((hcond0_1 ⟨n + 1, h⟩).mp h')) (iblk0 V c 0 ⟨n + 1, h⟩) (iblk0 V c 1 ⟨n + 1, h⟩)
      (outsAt0 V c n (Nat.lt_of_succ_lt h)).2.2.1 (outsAt0 V c n (Nat.lt_of_succ_lt h)).2.2.2) (ix2 b r)).trans ?_
    refine (k0_pay4_apply (wblk_vw V c ⟨n + 1, h⟩) (vblk_vw V c ⟨n + 1, h⟩) (outsAt0 V c n (Nat.lt_of_succ_lt h)).2.2.1 b r).trans ?_
    exact congrArg ((outsAt0 V c n (Nat.lt_of_succ_lt h)).2.2.1 (ix2 b r) + ·) (blockDot_vw V c ⟨n + 1, h⟩ b r)

/-- So after point `n` = 16·i + j the accumulator holds, at (b, r), the sum of the first j + 1 tiles of the products
    of row `b` of v with row 512·i + r of w. -/
theorem acc_vw (c : Dev nD) : ∀ (n : ℕ) (h : n < cfg0.N) (b : Fin 64) (r : Fin 512),
    (outsAt0 V c n h).2.2.1 (ix2 b r)
      = ∑ j ∈ Finset.range (n % 16 + 1), tileSum (terms_vw (varr_vw V c) (warr_vw V c) b ((n / 16) * 512 + r.val)) j
  | 0, h, b, r => by
    refine (stepA_vw V c 0 h rfl b r).trans ?_
    exact (Finset.sum_range_one _).symm
  | n + 1, h, b, r => by
    by_cases hz : (n + 1) % 16 = 0
    · refine (stepA_vw V c (n + 1) h hz b r).trans ?_
      rw [hz, Finset.sum_range_succ, Finset.range_zero, Finset.sum_empty, zero_add]
    · refine (stepS_vw V c n h hz b r).trans ?_
      have e1 : (n + 1) / 16 = n / 16 := by omega
      have e2 : (n + 1) % 16 = n % 16 + 1 := by omega
      rw [e1, e2, Finset.sum_range_succ _ (n % 16 + 1), acc_vw c n (Nat.lt_of_succ_lt h) b r]

/-- At the last column block the output block is the accumulator. -/
theorem out_eq_acc_vw (c : Dev nD) (n : ℕ) (h : n < cfg0.N) (h15 : n % 16 = 15) :
    (outsAt0 V c n h).1 = (outsAt0 V c n h).2.2.1 := by
  have hz : ¬n % 16 = 0 := by omega
  rw [outsAt0_C V c ⟨n, h⟩ hz h15]
  dsimp only
  rw [outC_vw, accC_vw]

/-! ## The product array after the region -/

/-- What a point of the last column block writes back is its block of the array of inner products. -/
theorem flushed_vw (c : Dev nD) (t : Fin cfg0.N) (hf : (cfg0.win 2).flush t = true) :
    (dat0 (F := Ideal) V c).flushed 2 t
      = ((cfg0.win 2).blk t).view.read (Elt Ideal) (dots_vw (varr_vw V c) (warr_vw V c)) := by
  have h15 : t.val % 16 = 15 := (flush0_2 t).mp hf
  show (cfg0.win 2).cut (grid0.coords t) ((dat0 V c).after 2 t) = _
  rw [after0_2]
  funext y
  obtain ⟨b, r, rfl⟩ : ∃ (b : Fin 64) (r : Fin 512), y = ix2 b r := ⟨y 0, y 1, eq_ix2 y⟩
  show (outsAt0 V c t.val t.isLt).1 (ix2 b r) = _
  refine Eq.trans ?_ (oblk2_read (F := Ideal) (dots_vw (varr_vw V c) (warr_vw V c)) t b r).symm
  rw [out_eq_acc_vw V c t.val t.isLt h15, acc_vw V c t.val t.isLt b r, h15]
  have hm : (t.val / 16) * 512 + r.val < 2048 := by have := r.isLt; have := pt_lt0 t; omega
  rw [← sum_32768_tiles, sum_terms_vw _ _ b _ hm]

/-- The product array after the region is the array of inner products of the rows of v with the rows of w. -/
theorem vw_array (c : Dev nD) :
    (dat0 (F := Ideal) V c).arrAt 2 cfg0.N = dots_vw (varr_vw V c) (warr_vw V c) :=
  (dat0 (F := Ideal) V c).arrAt_eq_of_cover 2 (dots_vw (varr_vw V c) (warr_vw V c))
    (fun t hf => flushed_vw V c t hf) cover0_2

/-- The product array after the region, at (b, r): the inner product of row `b` of v with row `r` of w over the
    32768 columns (the product of two entries taken on the extended reals). -/
theorem vw_final (V : (c : Dev nD) → (b : Ref sig .tc) → Buf (Elt Ideal) ((c : Thread nD τ).loc b)) (c : Dev nD)
    (b : Fin 64) (r : Fin 2048) :
    (dat0 (F := Ideal) V c).arrAt 2 cfg0.N (ValueIdx.ix2 b r)
      = ∑ n : Fin 32768, HMul.hMul (α := EReal) (β := EReal) (γ := EReal)
          (V c main_v0 (ValueIdx.ix2 b n)) (V c main_v1 (ValueIdx.ix2 r n)) :=
  congrFun (vw_array V c) (ix2 b r)

end Cert.KernelIdeal.Hand

end
-- ==== Proof.R0ValueW.lean ====
/-
  The second output of the accumulating product kernel: the squared norms of the rows of w.

  The kernel walks a 4 × 16 grid; point 16·i + j handles row block i (rows 512·i … 512·i + 511 of w) and column
  block j (columns 2048·j … 2048·j + 2047).  Its norm accumulator, a vector of 512 entries, is cleared at j = 0 and at
  every point gains, at entry r, the sum of squares of row r of the point's 512 × 2048 block of w.  So after column
  block j it holds, at r, the sum of the first j + 1 tiles of width 2048 of the squares of row 512·i + r — by induction
  on j along a row block.  At j = 15 the updated accumulator is what the second output's buffer receives, and sixteen
  tiles of 2048 make up all 32768 columns: the buffer holds the whole sum of squares of row 512·i + r.  Those points
  are the ones that write the output back, each to entries 512·i … 512·i + 511, and the four of them cover the 2048
  entries; hence the output array ends holding, at every m, the sum over n of w[m, n]².
-/
import proofs.«171713_j39152921870432_1_alg».proof.Proof.R0Runs
import proofs.«171713_j39152921870432_1_alg».proof.Proof.R0Body
import proofs.«171713_j39152921870432_1_alg».proof.Proof.R0Pieces
import proofs.«171713_j39152921870432_1_alg».proof.Proof.R0Blocks
import proofs.«171713_j39152921870432_1_alg».proof.Proof.PayIdx
import proofs.«171713_j39152921870432_1_alg».proof.Proof.SumMath
import Idealize.ShloMosaic.Lib.Pipeline.Value
import Idealize.ShloMosaic.Lib.ValueIdx
import Idealize.ShloMosaic.Lib.ValueIdxRank1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The grid has 64 points. -/
theorem N64 : cfg0.N = 64 := N_0

/-- The memory array w (2048 × 32768) as the region finds it, its entries extended reals. -/
abbrev warr (c : Dev nD) : FVec Ideal S2048x32768 .f32 := V c main_v1

/-- The memory block (512 × 2048) at a grid point, its entries extended reals. -/
abbrev wblk (c : Dev nD) (t : Fin cfg0.N) : Vec Ideal S512x2048 .f32 := iblk0 V c 1 t

/-- The squares of row m of w, column by column. -/
def wrowSq (c : Dev nD) (m : Fin 2048) : Fin 32768 → EReal := fun n => warr V c (ix2 m n) * warr V c (ix2 m n)

/-- The squared norms of the rows of w: what the second output must end holding. -/
def wsqArr (c : Dev nD) : S2048.Idx → Elt Ideal .f32 := fun i => ∑ n : Fin 32768, wrowSq V c ⟨(i 0).val, (i 0).isLt⟩ n

/-- The run's contents after a position do not depend on how the position is spelt. -/
theorem outsAt0_congr (c : Dev nD) {n n' : ℕ} (e : n = n') (h : n < cfg0.N) (h' : n' < cfg0.N) :
    outsAt0 V c n h = outsAt0 V c n' h' := by
  subst e; rfl

/-! ## One point's effect on the norm accumulator -/

/-- At the first column block of a row block the norm accumulator is the update of the zero fill. -/
theorem acc1_A (c : Dev nD) (n : ℕ) (hn : n < cfg0.N) (h0 : n % 16 = 0) :
    (outsAt0 V c n hn).2.2.2 = k0_pay5 (F := Ideal) (wblk V c ⟨n, hn⟩) (k0_pay2 (F := Ideal)) := by
  have h1 : ¬(⟨n, hn⟩ : Fin cfg0.N).val % 16 = 15 := by dsimp only; omega
  rw [outsAt0_A V c ⟨n, hn⟩ h0 h1]
  dsimp only
  exact piece_A_1 (F := Ideal) c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) (ms0_3 ⟨n, hn⟩) (hs0_3 ⟨n, hn⟩) scM0_0 (Memref.isWhole_whole _) scM0_1 (Memref.isWhole_whole _)
    ((hcond0_0 ⟨n, hn⟩).mpr h0) (fun h => h1 ((hcond0_1 ⟨n, hn⟩).mp h)) (iblk0 V c 0 ⟨n, hn⟩) (iblk0 V c 1 ⟨n, hn⟩)

/-- At a middle column block it is the update of what the position before left. -/
theorem acc1_B (c : Dev nD) (n : ℕ) (hn : n < cfg0.N) (h0 : ¬n % 16 = 0) (h1 : ¬n % 16 = 15) :
    (outsAt0 V c n hn).2.2.2
      = k0_pay5 (F := Ideal) (wblk V c ⟨n, hn⟩) (outsAt0 V c (n - 1) (Nat.lt_of_le_of_lt (Nat.sub_le _ _) hn)).2.2.2 := by
  rw [outsAt0_B V c ⟨n, hn⟩ h0 h1]
  dsimp only
  exact piece_B_1 (F := Ideal) c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) (ms0_3 ⟨n, hn⟩) (hs0_3 ⟨n, hn⟩) scM0_0 (Memref.isWhole_whole _) scM0_1 (Memref.isWhole_whole _)
    (fun h => h0 ((hcond0_0 ⟨n, hn⟩).mp h)) (fun h => h1 ((hcond0_1 ⟨n, hn⟩).mp h)) (iblk0 V c 0 ⟨n, hn⟩) (iblk0 V c 1 ⟨n, hn⟩)
    (outsAt0 V c (n - 1) (Nat.lt_of_le_of_lt (Nat.sub_le _ _) hn)).2.2.1
    (outsAt0 V c (n - 1) (Nat.lt_of_le_of_lt (Nat.sub_le _ _) hn)).2.2.2

/-- At the last column block the second output's buffer receives the same update. -/
theorem out3_C (c : Dev nD) (n : ℕ) (hn : n < cfg0.N) (h1 : n % 16 = 15) :
    (outsAt0 V c n hn).2.1
      = k0_pay5 (F := Ideal) (wblk V c ⟨n, hn⟩) (outsAt0 V c (n - 1) (Nat.lt_of_le_of_lt (Nat.sub_le _ _) hn)).2.2.2 := by
  have h0 : ¬(⟨n, hn⟩ : Fin cfg0.N).val % 16 = 0 := by dsimp only; omega
  rw [outsAt0_C V c ⟨n, hn⟩ h0 h1]
  dsimp only
  exact piece_C_3 (F := Ideal) c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) (ms0_3 ⟨n, hn⟩) (hs0_3 ⟨n, hn⟩) scM0_0 (Memref.isWhole_whole _) scM0_1 (Memref.isWhole_whole _)
    (fun h => h0 ((hcond0_0 ⟨n, hn⟩).mp h)) ((hcond0_1 ⟨n, hn⟩).mpr h1) (iblk0 V c 0 ⟨n, hn⟩) (iblk0 V c 1 ⟨n, hn⟩)
    (outsAt0 V c (n - 1) (Nat.lt_of_le_of_lt (Nat.sub_le _ _) hn)).2.2.1
    (outsAt0 V c (n - 1) (Nat.lt_of_le_of_lt (Nat.sub_le _ _) hn)).2.2.2

/-! ## A block's row sum of squares is one tile of the row's -/

/-- The memory block at column block j of row block i: its row r is row 512·i + r of w, its column k column 2048·j + k. -/
theorem wblk_tile (c : Dev nD) (i j : ℕ) (hi : i < 4) (hj : j < 16) (h : 16 * i + j < cfg0.N) (r : Fin 512) (k : Fin 2048) :
    wblk V c ⟨16 * i + j, h⟩ (ix2 r k)
      = warr V c (ix2 ⟨i * 512 + r.val, by have := r.isLt; omega⟩ ⟨j * 2048 + k.val, SumMath.tile16_lt hj k⟩) := by
  refine (wblk_apply V c ⟨16 * i + j, h⟩ r k).trans ?_
  refine congrArg (warr V c) ?_
  funext a
  apply Fin.ext
  match a with
  | ⟨0, _⟩ => show (16 * i + j) / 16 * 512 + r.val = i * 512 + r.val; omega
  | ⟨1, _⟩ => show (16 * i + j) % 16 * 2048 + k.val = j * 2048 + k.val; omega

/-- So the sum of squares of that block's row r is tile j of the squares of row 512·i + r. -/
theorem blk_sq_sum (c : Dev nD) (i j : ℕ) (hi : i < 4) (hj : j < 16) (h : 16 * i + j < cfg0.N) (r : Fin 512) :
    ∑ k : Fin 2048, wblk V c ⟨16 * i + j, h⟩ (ix2 r k) * wblk V c ⟨16 * i + j, h⟩ (ix2 r k)
      = SumMath.tileSum (wrowSq V c ⟨i * 512 + r.val, by have := r.isLt; omega⟩) j := by
  rw [SumMath.tileSum_of_lt _ hj]
  refine Finset.sum_congr rfl fun k _ => ?_
  rw [wblk_tile V c i j hi hj h r k]
  rfl

/-! ## The accumulator along a row block -/

/-- After column block j < 15 of row block i the norm accumulator holds, at r, the first j + 1 tiles of the squares of
    row 512·i + r. -/
theorem acc1_inv (c : Dev nD) (i : ℕ) (hi : i < 4) (r : Fin 512) :
    ∀ (j : ℕ) (hj : j < 15) (h : 16 * i + j < cfg0.N),
      (outsAt0 V c (16 * i + j) h).2.2.2 (ix1 r)
        = ∑ jj ∈ Finset.range (j + 1), SumMath.tileSum (wrowSq V c ⟨i * 512 + r.val, by have := r.isLt; omega⟩) jj := by
  have hN := N64
  intro j
  induction j with
  | zero =>
    intro hj h
    rw [acc1_A V c (16 * i + 0) h (by omega)]
    refine (k0_pay5_apply _ _ r).trans ?_
    rw [k0_pay2_apply, zero_add, Finset.sum_range_one]
    exact blk_sq_sum V c i 0 hi (by omega) h r
  | succ j ih =>
    intro hj h
    have h' : 16 * i + j < cfg0.N := by omega
    rw [acc1_B V c (16 * i + (j + 1)) h (by omega) (by omega)]
    refine (k0_pay5_apply _ _ r).trans ?_
    rw [Finset.sum_range_succ _ (j + 1)]
    refine congrArg₂ (· + ·) ?_ (blk_sq_sum V c i (j + 1) hi (by omega) h r)
    rw [outsAt0_congr V c (show 16 * i + (j + 1) - 1 = 16 * i + j by omega) _ h']
    exact ih (by omega) h'

/-- At column block 15 the second output's buffer holds, at r, the whole sum of squares of row 512·i + r. -/
theorem out3_val (c : Dev nD) (i : ℕ) (hi : i < 4) (h : 16 * i + 15 < cfg0.N) (r : Fin 512) :
    (outsAt0 V c (16 * i + 15) h).2.1 (ix1 r)
      = ∑ n : Fin 32768, wrowSq V c ⟨i * 512 + r.val, by have := r.isLt; omega⟩ n := by
  have hN := N64
  have h' : 16 * i + 14 < cfg0.N := by omega
  rw [out3_C V c (16 * i + 15) h (by omega)]
  refine (k0_pay5_apply _ _ r).trans ?_
  rw [SumMath.sum_32768_tiles, Finset.sum_range_succ _ 15]
  refine congrArg₂ (· + ·) ?_ (blk_sq_sum V c i 15 hi (by omega) h r)
  rw [outsAt0_congr V c (show 16 * i + 15 - 1 = 16 * i + 14 by omega) _ h']
  exact acc1_inv V c i hi r 14 (by omega) h'

/-! ## The second output array after the run -/

/-- What a writing-back point writes to the second output is its block of the squared norms. -/
theorem flushed3_eq (c : Dev nD) (t : Fin cfg0.N) (hf : (cfg0.win 3).flush t = true) :
    (dat0 (F := Ideal) V c).flushed 3 t = ((cfg0.win 3).blk t).view.read (Elt Ideal) (wsqArr V c) := by
  have hN := N64
  have h15 : t.val % 16 = 15 := (flush0_3 t).mp hf
  have ht := t.isLt
  obtain ⟨i, hi, h, rfl⟩ : ∃ (i : ℕ) (hi : i < 4) (h : 16 * i + 15 < cfg0.N), t = ⟨16 * i + 15, h⟩ :=
    ⟨t.val / 16, by omega, by omega, Fin.ext (by show t.val = 16 * (t.val / 16) + 15; omega)⟩
  show (cfg0.win 3).cut (grid0.coords ⟨16 * i + 15, h⟩) ((dat0 (F := Ideal) V c).after 3 ⟨16 * i + 15, h⟩) = _
  rw [after0_3]
  funext y
  obtain ⟨r, rfl⟩ : ∃ r : Fin 512, y = ix1 r := ⟨y 0, eq_ix1 y⟩
  rw [oblk3_read]
  show (outsAt0 V c (16 * i + 15) h).2.1 (ix1 r) = _
  rw [out3_val V c i hi h r]
  show _ = ∑ n : Fin 32768, wrowSq V c ⟨(16 * i + 15) / 16 * 512 + r.val, _⟩ n
  refine Finset.sum_congr rfl fun n _ => ?_
  refine congrArg (fun m => wrowSq V c m n) (Fin.ext ?_)
  show i * 512 + r.val = (16 * i + 15) / 16 * 512 + r.val
  omega

/-- The second output of the first kernel ends holding the squared norms of the rows of w. -/
theorem wsq_final (V : (c : Dev nD) → (b : Ref sig .tc) → Buf (Elt Ideal) ((c : Thread nD τ).loc b)) (c : Dev nD) (r : Fin 2048) :
    (dat0 (F := Ideal) V c).arrAt 3 cfg0.N (ValueIdx.ix1 r)
      = ∑ n : Fin 32768, HMul.hMul (α := EReal) (β := EReal) (γ := EReal)
          (V c main_v1 (ValueIdx.ix2 r n)) (V c main_v1 (ValueIdx.ix2 r n)) := by
  rw [(dat0 (F := Ideal) V c).arrAt_eq_of_cover 3 (wsqArr V c) (flushed3_eq V c) cover0_3]
  rfl

end Cert.KernelIdeal.Hand

end
-- ==== Proof.Algebraic.lean ====
/-
  The two programs end with equal results.

  The kernel's program leaves in its three region outputs the inner products ⟨v_b, w_m⟩, the squared norms ‖w_m‖² and the raw
  products ⟨a_b, k_m⟩, each as a whole sum on the extended reals; the reference's host reductions and products are the same
  sums, so the scores agree; the key distances agree because the inputs are finite; and everything after the score and the
  distance is one function of the two.
-/
import proofs.«171713_j39152921870432_1_alg».proof.Proof.RunAll
import proofs.«171713_j39152921870432_1_alg».proof.Proof.HostK
import proofs.«171713_j39152921870432_1_alg».proof.Proof.R1Value
import proofs.«171713_j39152921870432_1_alg».proof.Proof.RefVal
import proofs.«171713_j39152921870432_1_alg».proof.Proof.DistMath
import proofs.«171713_j39152921870432_1_alg».proof.Proof.Finite
import proofs.«171713_j39152921870432_1_alg».proof.Proof.R0Value
import proofs.«171713_j39152921870432_1_alg».proof.Proof.R0ValueW
import proofs.«171713_j39152921870432_1_alg».proof.Defs

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The voxels flattened, as the reference's reader names them. -/
theorem voxels_eq (c : Dev nD) : Gen.V1 m c main_v0 = Cert.ReferenceIdeal.ReadP.val_main_v0 (F := Ideal) (m ((c : Thread nD τ).loc main_arg1)) :=
  V1_v0 m c

/-- The memory values flattened, as the reference's reader names them. -/
theorem memory_eq (c : Dev nD) : Gen.V1 m c main_v1 = Cert.ReferenceIdeal.ReadP.val_main_v1 (F := Ideal) (m ((c : Thread nD τ).loc main_arg3)) :=
  V1_v1 m c

/-- Region 0's first output is the reference's product of the flattened voxels with the flattened memory values. -/
theorem dots_eq (c : Dev nD) :
    outs m 2 main_v2_0 c = Cert.ReferenceIdeal.ReadP.val_main_v12 (F := Ideal) (m ((c : Thread nD τ).loc main_arg1)) (m ((c : Thread nD τ).loc main_arg3)) := by
  rw [outs_vw]
  funext i
  obtain ⟨b, r, rfl⟩ : ∃ (b : Fin 64) (r : Fin 2048), i = ix2 b r := ⟨i 0, i 1, eq_ix2 i⟩
  rw [vw_final]
  refine Eq.trans ?_ (Cert.RefVal.ref_vw_apply _ _ b r).symm
  rw [← voxels_eq m c, ← memory_eq m c]

/-- Region 0's second output is the reference's squared norms of the flattened memory values. -/
theorem norms_eq (c : Dev nD) :
    outs m 2 main_v2_1 c = Cert.ReferenceIdeal.ReadP.val_main_v5 (F := Ideal) (m ((c : Thread nD τ).loc main_arg3)) := by
  rw [outs_wsq]
  funext i
  obtain ⟨r, rfl⟩ : ∃ r : Fin 2048, i = ix1 r := ⟨i 0, eq_ix1 i⟩
  rw [wsq_final]
  refine Eq.trans ?_ (Cert.RefVal.ref_wsq_apply _ r).symm
  rw [← memory_eq m c]

/-- Region 1's output at an entry is the inner product of an anchor row with a key row. -/
theorem raw_apply (c : Dev nD) (b : Fin 64) (r : Fin 2048) :
    outs m 4 main_v21 c (ix2 b r) = ∑ f : Fin 512, HMul.hMul (α := EReal) (β := EReal) (γ := EReal)
      (m ((c : Thread nD τ).loc main_arg0) (ix2 b f)) (m ((c : Thread nD τ).loc main_arg2) (ix2 r f)) := by
  rw [outs_raw, raw_final, V3_arg0, V3_arg2]

end Cert.KernelIdeal.Hand

namespace Cert.Proof

open Idealize.ShloMosaic Idealize.SL.Sem Idealize.ShloMosaic.TcCoe Cert.KernelIdeal.Hand

/-- At the ideal instance the kernel's program ends at the shared function of the score and the distance, with the
    kernel's three sums in it (its run with every buffer named, its host operations read back); the reference ends at the
    same function of its own sums (its run, read stage by stage); the sums agree, and the distances agree on finite inputs. -/
theorem algebraic : Cert.algebraic_KernelIdeal_ReferenceIdeal := by
  intro m ρ m' ρ' hpre hagree
  refine ⟨fun c => Cert.KernelIdeal.Gen.V15 m (outs m) c Cert.KernelIdeal.main_v54, run_result m ρ, ?_⟩
  refine (θ_run Cert.ReferenceIdeal.defs _ _).mono (fun r h c => ⟨(h c).1.trans ?_, (h c).2⟩)
    (Cert.ReferenceIdeal.RunP.run (F := Ideal) m' ρ')
  obtain ⟨e0, e1, e2, e3⟩ := hagree c
  rw [Cert.ReferenceIdeal.ReadP.val_main_v57_eq, e0, e1, e2, e3, Cert.RefVal.ref_tail]
  refine Eq.trans ?_ (result_eq m (outs m) c).symm
  rw [dots_eq, norms_eq, voxels_eq,
    Cert.DistMath.dist_eq _ _ (Cert.Finite.anchors_real m hpre c) (Cert.Finite.keys_real m hpre c) _ (raw_apply m c)]

end Cert.Proof

end
-- ==== Proof.lean ====
/-
  The certificate of the voxel triplet loss kernel against its reference.

  The kernel's program computes, with two kernel regions, the inner products  ⟨v_b, w_m⟩  (a product tiled over the memory bank
  and accumulated over sixteen slices of the 32768 voxel features) together with the squared norms  ‖w_m‖², and the raw inner
  products  ⟨a_b, k_m⟩  of anchors and keys; host operations turn these into the voxel score, the key distance
  1 − ⟨a_b, k_m⟩ / (‖a_b‖·‖k_m‖)  and the final masked mean.  The reference computes the same sums by host reductions and
  products, and the key distance as  1 − Σ_f (a_bf/‖a_b‖)·(k_mf/‖k_m‖).

  * The three frames: the kernel's program, at the word level and at the ideal instance, by its two regions' segment records
    over the conditional frame of its @main; the reference by its run.
  * `preserves`: the ideal pass rewrote nothing, so there is nothing to state.
  * `algebraic`: on the extended reals the tiled sums are the whole sums (addition is commutative and associative there, so no
    finiteness is needed), and the two forms of the key distance agree because the inputs are finite: the clamped norms are
    positive reals and the quotient distributes over the sum.  Everything after the score and the distance is the same
    function on both sides.
-/
import proofs.«171713_j39152921870432_1_alg».proof.Defs
import proofs.«171713_j39152921870432_1_alg».proof.Proof.Frames
import proofs.«171713_j39152921870432_1_alg».proof.Proof.Bits.Frames
import proofs.«171713_j39152921870432_1_alg».proof.Proof.Algebraic
import Idealize.ShloMosaic.Adequacy
import Idealize.ShloMosaic.Init

noncomputable section

namespace Cert.Proof

open Idealize.ShloMosaic Idealize.SL.Sem

/-- The word-level program runs to its end and leaves its arguments as launched. -/
theorem frame_k : Cert.frame_Kernel := fun m ρ _ => Cert.Kernel.Hand.frame m ρ

/-- The same program read at the ideal instance. -/
theorem frame_ki : Cert.frame_KernelIdeal := fun m ρ _ => Cert.KernelIdeal.Hand.frame m ρ

/-- The reference runs to its end: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
